-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S1024 : Shape := ⟨1, ![1024]⟩
abbrev S1024x1024x4 : Shape := ⟨3, ![1024, 1024, 4]⟩
abbrev S512x1024 : Shape := ⟨2, ![512, 1024]⟩
abbrev S512 : Shape := ⟨1, ![512]⟩
abbrev S512x1024x4 : Shape := ⟨3, ![512, 1024, 4]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1024x4 : S_.BroadcastsInDim S1024x1024x4 (![] : Fin 0 → Fin S1024x1024x4.rank)
  reducesTo_S1024x1024x4_S_d0_1_2 : S1024x1024x4.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x1024x4 : S_.BroadcastsInDim S512x1024x4 (![] : Fin 0 → Fin S512x1024x4.rank)
  reducesTo_S512x1024x4_S_d0_1_2 : S512x1024x4.ReducesTo [0, 1, 2] S_

variable [Facts]

def fn_part1 {F : FTy → Type} [FloatOps F] (main_arg4 : FVec F S512x1024 .f32) (main_arg5 : FVec F S512 .f32) (main_arg6 : FVec F S512x1024x4 .f32) (main_v13 : IVec S_ 1) (main_v16 : IVec S1024x1024x4 1) : IVec S_ 1 :=
  let main_c_5 : IVec S_ 1 := constantI S_ 1 1#1
  let main_v17 : IVec S_ 1 := (fun x v => Host.reduce IntOp.andi x v reducesTo_S1024x1024x4_S_d0_1_2 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024x4 .f32 := Host.absf main_arg6
  let main_cst_10 : FVec F S_ .f32 := constant S_ .f32 0x7F800000#32
  let main_v30 : FVec F S512x1024x4 .f32 := broadcastInDim S512x1024x4 ![] bcast_S_S512x1024x4 main_cst_10
  let main_v31 : IVec S512x1024x4 1 := cmpf .olt main_v29 main_v30
  let main_c_11 : IVec S_ 1 := constantI S_ 1 1#1
  let main_v32 : IVec S_ 1 := (fun x v => Host.reduce IntOp.andi x v reducesTo_S512x1024x4_S_d0_1_2 h_S_) main_v31 main_c_11
  let main_v33 : IVec S_ 1 := andi main_v28 main_v32
  main_v33

def fn {F : FTy → Type} [FloatOps F] (main_arg0 : FVec F S128x1024 .f32) (main_arg1 : FVec F S1024x1024 .f32) (main_arg2 : FVec F S1024 .f32) (main_arg3 : FVec F S1024x1024x4 .f32) (main_arg4 : FVec F S512x1024 .f32) (main_arg5 : FVec F S512 .f32) (main_arg6 : FVec F S512x1024x4 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024x4 .f32 := Host.absf main_arg3
  let main_cst_4 : FVec F S_ .f32 := constant S_ .f32 0x7F800000#32
  let main_v15 : FVec F S1024x1024x4 .f32 := broadcastInDim S1024x1024x4 ![] bcast_S_S1024x1024x4 main_cst_4
  let main_v16 : IVec S1024x1024x4 1 := cmpf .olt main_v14 main_v15
  fn_part1 (F := F) main_arg4 main_arg5 main_arg6 main_v13 main_v16
-- ==== Kernel.lean ====
abbrev S128x1024 : Shape := ⟨2, ![128, 1024]⟩
abbrev S1024x1024 : Shape := ⟨2, ![1024, 1024]⟩
abbrev S1024 : Shape := ⟨1, ![1024]⟩
abbrev S1024x1024x4 : Shape := ⟨3, ![1024, 1024, 4]⟩
abbrev S512x1024 : Shape := ⟨2, ![512, 1024]⟩
abbrev S512 : Shape := ⟨1, ![512]⟩
abbrev S512x1024x4 : Shape := ⟨3, ![512, 1024, 4]⟩
abbrev S4x1024x1024 : Shape := ⟨3, ![4, 1024, 1024]⟩
abbrev S4x512x1024 : Shape := ⟨3, ![4, 512, 1024]⟩
abbrev S1x1024 : Shape := ⟨2, ![1, 1024]⟩
abbrev S128x128 : Shape := ⟨2, ![128, 128]⟩
abbrev S1x128 : Shape := ⟨2, ![1, 128]⟩
abbrev S4x128x128 : Shape := ⟨3, ![4, 128, 128]⟩
abbrev S1x128x128 : Shape := ⟨3, ![1, 128, 128]⟩
abbrev S128x1x128 : Shape := ⟨3, ![128, 1, 128]⟩
abbrev S128x128x128 : Shape := ⟨3, ![128, 128, 128]⟩
abbrev S1x512 : Shape := ⟨2, ![1, 512]⟩
abbrev S128x512 : Shape := ⟨2, ![128, 512]⟩

abbrev nBuf : Space → Nat
  | .hbm => 13
  | .vmem => 22
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1024, .f32⟩
  | .hbm, ⟨3, _⟩ => ⟨S1024x1024x4, .f32⟩
  | .hbm, ⟨4, _⟩ => ⟨S512x1024, .f32⟩
  | .hbm, ⟨5, _⟩ => ⟨S512, .f32⟩
  | .hbm, ⟨6, _⟩ => ⟨S512x1024x4, .f32⟩
  | .hbm, ⟨7, _⟩ => ⟨S4x1024x1024, .f32⟩
  | .hbm, ⟨8, _⟩ => ⟨S4x512x1024, .f32⟩
  | .hbm, ⟨9, _⟩ => ⟨S1x1024, .f32⟩
  | .hbm, ⟨10, _⟩ => ⟨S128x1024, .f32⟩
  | .hbm, ⟨11, _⟩ => ⟨S1x512, .f32⟩
  | .hbm, ⟨12, _⟩ => ⟨S128x512, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S4x128x128, .f32⟩
  | .local _ .vmem, ⟨7, _⟩ => ⟨S4x128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S4x128x128, .f32⟩
  | .local _ .vmem, ⟨18, _⟩ => ⟨S4x128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_14 : BitVec 32 := 0#32
  let v45 : BitVec 1 := Scalar.cmpi .ne v44 c0_i32_14
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_14 : BitVec 32 := 0#32
  let v45 : BitVec 1 := Scalar.cmpi .ne v44 c0_i32_14
  v45

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  transposes_S1024x1024x4_S4x1024x1024_2_0_1 : S1024x1024x4.Transposes [2, 0, 1] S4x1024x1024
  transposes_S512x1024x4_S4x512x1024_2_0_1 : S512x1024x4.Transposes [2, 0, 1] S4x512x1024
  shapeCasts_S1024_S1x1024 : S1024.ShapeCasts S1x1024
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4x128x128_S4x128x128_0_0_0 : ∀ a, (![0, 0, 0] : Fin 3 → Nat) a + S4x128x128.size a ≤ S4x128x128.size a
  h_S4x128x128 : 0 < S4x128x128.numel
  shapeCasts_S4x128x128_S4x128x128 : S4x128x128.ShapeCasts S4x128x128
  reduces_S4x128x128_S128x128 : S4x128x128.Reduces [0] S128x128
  shapeCasts_S128x128_S1x128x128 : S128x128.ShapeCasts S1x128x128
  broadcasts_S1x128x128_S4x128x128 : S1x128x128.Broadcasts S4x128x128
  slices_S4x128x128_o0_0_0_S1x128x128 : S4x128x128.Slices ![0, 0, 0] S1x128x128
  shapeCasts_S1x128x128_S128x128 : S1x128x128.ShapeCasts S128x128
  slices_S4x128x128_o2_0_0_S1x128x128 : S4x128x128.Slices ![2, 0, 0] S1x128x128
  slices_S4x128x128_o3_0_0_S1x128x128 : S4x128x128.Slices ![3, 0, 0] S1x128x128
  shapeCasts_S128x128_S128x1x128 : S128x128.ShapeCasts S128x1x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  shapeCasts_S512_S1x512 : S512.ShapeCasts S1x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x1024.size a
  hwx0_0 : ∀ i : grid0.Coords, EltTy.bits .f32 = 32 ∨ (Rect.block (s := S128x1024) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x1024.size a
  hwx0_1 : ∀ i : grid0.Coords, EltTy.bits .f32 = 32 ∨ (Rect.block (s := S1024x1024) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x128x128.size a ≤ S4x1024x1024.size a
  hwx0_3 : ∀ i : grid0.Coords, EltTy.bits .f32 = 32 ∨ (Rect.block (s := S4x1024x1024) S4x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x1024.size a
  hwx0_4 : ∀ i : grid0.Coords, EltTy.bits .f32 = 32 ∨ (Rect.block (s := S128x1024) S128x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S128x1024.size a
  hwx1_0 : ∀ i : grid1.Coords, EltTy.bits .f32 = 32 ∨ (Rect.block (s := S128x1024) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x1024.size a
  hwx1_1 : ∀ i : grid1.Coords, EltTy.bits .f32 = 32 ∨ (Rect.block (s := S512x1024) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x512.size a
  hwx1_2 : ∀ i : grid1.Coords, EltTy.bits .f32 = 32 ∨ (Rect.block (s := S1x512) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x128x128.size a ≤ S4x512x1024.size a
  hwx1_3 : ∀ i : grid1.Coords, EltTy.bits .f32 = 32 ∨ (Rect.block (s := S4x512x1024) S4x128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x512.size a
  hwx1_4 : ∀ i : grid1.Coords, EltTy.bits .f32 = 32 ∨ (Rect.block (s := S128x512) S128x128.size (cc1_transform_4 i) (hinb1_4 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v3) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S4x128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S128x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S128x1024 : Shape := ⟨2, ![128, 1024]⟩
abbrev S1024x1024 : Shape := ⟨2, ![1024, 1024]⟩
abbrev S1024 : Shape := ⟨1, ![1024]⟩
abbrev S1024x1024x4 : Shape := ⟨3, ![1024, 1024, 4]⟩
abbrev S512x1024 : Shape := ⟨2, ![512, 1024]⟩
abbrev S512 : Shape := ⟨1, ![512]⟩
abbrev S512x1024x4 : Shape := ⟨3, ![512, 1024, 4]⟩
abbrev S_ : Shape := ⟨0, ![]⟩
abbrev S1024x1024x1 : Shape := ⟨3, ![1024, 1024, 1]⟩
abbrev S128x1x1024 : Shape := ⟨3, ![128, 1, 1024]⟩
abbrev S1x1024x1024 : Shape := ⟨3, ![1, 1024, 1024]⟩
abbrev S128x1024x1024 : Shape := ⟨3, ![128, 1024, 1024]⟩
abbrev S1x1024 : Shape := ⟨2, ![1, 1024]⟩
abbrev S512x1024x1 : Shape := ⟨3, ![512, 1024, 1]⟩
abbrev S1x512x1024 : Shape := ⟨3, ![1, 512, 1024]⟩
abbrev S128x512x1024 : Shape := ⟨3, ![128, 512, 1024]⟩
abbrev S128x512 : Shape := ⟨2, ![128, 512]⟩
abbrev S1x512 : Shape := ⟨2, ![1, 512]⟩

abbrev nBuf : Space → Nat
  | .hbm => 86
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1024, .f32⟩
  | .hbm, ⟨3, _⟩ => ⟨S1024x1024x4, .f32⟩
  | .hbm, ⟨4, _⟩ => ⟨S512x1024, .f32⟩
  | .hbm, ⟨5, _⟩ => ⟨S512, .f32⟩
  | .hbm, ⟨6, _⟩ => ⟨S512x1024x4, .f32⟩
  | .hbm, ⟨7, _⟩ => ⟨S_, .f32⟩
  | .hbm, ⟨8, _⟩ => ⟨S1024x1024x4, .f32⟩
  | .hbm, ⟨9, _⟩ => ⟨S1024x1024x4, .f32⟩
  | .hbm, ⟨10, _⟩ => ⟨S_, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024x1, .f32⟩
  | .hbm, ⟨16, _⟩ => ⟨S1024x1024x4, .f32⟩
  | .hbm, ⟨17, _⟩ => ⟨S1024x1024x4, .f32⟩
  | .hbm, ⟨18, _⟩ => ⟨S1024x1024x4, .f32⟩
  | .hbm, ⟨19, _⟩ => ⟨S_, .f32⟩
  | .hbm, ⟨20, _⟩ => ⟨S1024x1024, .f32⟩
  | .hbm, ⟨21, _⟩ => ⟨S1024x1024x1, .f32⟩
  | .hbm, ⟨22, _⟩ => ⟨S1024x1024x4, .f32⟩
  | .hbm, ⟨23, _⟩ => ⟨S1024x1024x4, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024x1, .f32⟩
  | .hbm, ⟨29, _⟩ => ⟨S1024x1024x1, .f32⟩
  | .hbm, ⟨30, _⟩ => ⟨S1024x1024x1, .f32⟩
  | .hbm, ⟨31, _⟩ => ⟨S1024x1024x1, .f32⟩
  | .hbm, ⟨32, _⟩ => ⟨S1024x1024x4, .f32⟩
  | .hbm, ⟨33, _⟩ => ⟨S1024x1024x4, .f32⟩
  | .hbm, ⟨34, _⟩ => ⟨S_, .f32⟩
  | .hbm, ⟨35, _⟩ => ⟨S1024x1024, .f32⟩
  | .hbm, ⟨36, _⟩ => ⟨S128x1x1024, .f32⟩
  | .hbm, ⟨37, _⟩ => ⟨S1x1024x1024, .f32⟩
  | .hbm, ⟨38, _⟩ => ⟨S128x1024x1024, .f32⟩
  | .hbm, ⟨39, _⟩ => ⟨S128x1024x1024, .f32⟩
  | .hbm, ⟨40, _⟩ => ⟨S128x1024x1024, .f32⟩
  | .hbm, ⟨41, _⟩ => ⟨S128x1024x1024, .f32⟩
  | .hbm, ⟨42, _⟩ => ⟨S_, .f32⟩
  | .hbm, ⟨43, _⟩ => ⟨S128x1024, .f32⟩
  | .hbm, ⟨44, _⟩ => ⟨S1x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S512x1024x4, .f32⟩
  | .hbm, ⟨49, _⟩ => ⟨S512x1024x4, .f32⟩
  | .hbm, ⟨50, _⟩ => ⟨S_, .f32⟩
  | .hbm, ⟨51, _⟩ => ⟨S512x1024, .f32⟩
  | .hbm, ⟨52, _⟩ => ⟨S_, .f32⟩
  | .hbm, ⟨53, _⟩ => ⟨S512x1024, .f32⟩
  | .hbm, ⟨54, _⟩ => ⟨S512x1024, .f32⟩
  | .hbm, ⟨55, _⟩ => ⟨S512x1024x1, .f32⟩
  | .hbm, ⟨56, _⟩ => ⟨S512x1024x4, .f32⟩
  | .hbm, ⟨57, _⟩ => ⟨S512x1024x4, .f32⟩
  | .hbm, ⟨58, _⟩ => ⟨S512x1024x4, .f32⟩
  | .hbm, ⟨59, _⟩ => ⟨S_, .f32⟩
  | .hbm, ⟨60, _⟩ => ⟨S512x1024, .f32⟩
  | .hbm, ⟨61, _⟩ => ⟨S512x1024x1, .f32⟩
  | .hbm, ⟨62, _⟩ => ⟨S512x1024x4, .f32⟩
  | .hbm, ⟨63, _⟩ => ⟨S512x1024x4, .f32⟩
  | .hbm, ⟨64, _⟩ => ⟨S_, .f32⟩
  | .hbm, ⟨65, _⟩ => ⟨S512x1024, .f32⟩
  | .hbm, ⟨66, _⟩ => ⟨S512x1024, .f32⟩
  | .hbm, ⟨67, _⟩ => ⟨S512x1024, .f32⟩
  | .hbm, ⟨68, _⟩ => ⟨S512x1024x1, .f32⟩
  | .hbm, ⟨69, _⟩ => ⟨S512x1024x1, .f32⟩
  | .hbm, ⟨70, _⟩ => ⟨S512x1024x1, .f32⟩
  | .hbm, ⟨71, _⟩ => ⟨S512x1024x1, .f32⟩
  | .hbm, ⟨72, _⟩ => ⟨S512x1024x4, .f32⟩
  | .hbm, ⟨73, _⟩ => ⟨S512x1024x4, .f32⟩
  | .hbm, ⟨74, _⟩ => ⟨S_, .f32⟩
  | .hbm, ⟨75, _⟩ => ⟨S512x1024, .f32⟩
  | .hbm, ⟨76, _⟩ => ⟨S128x1x1024, .f32⟩
  | .hbm, ⟨77, _⟩ => ⟨S1x512x1024, .f32⟩
  | .hbm, ⟨78, _⟩ => ⟨S128x512x1024, .f32⟩
  | .hbm, ⟨79, _⟩ => ⟨S128x512x1024, .f32⟩
  | .hbm, ⟨80, _⟩ => ⟨S128x512x1024, .f32⟩
  | .hbm, ⟨81, _⟩ => ⟨S_, .f32⟩
  | .hbm, ⟨82, _⟩ => ⟨S128x512, .f32⟩
  | .hbm, ⟨83, _⟩ => ⟨S1x512, .f32⟩
  | .hbm, ⟨84, _⟩ => ⟨S128x512, .f32⟩
  | .hbm, ⟨85, _⟩ => ⟨S128x512, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]

class Facts₀ : Prop where
  bcast_S_S1024x1024x4 : S_.BroadcastsInDim S1024x1024x4 (![] : Fin 0 → Fin S1024x1024x4.rank)
  reducesTo_S1024x1024x4_S1024x1024_d2 : S1024x1024x4.ReducesTo [2] S1024x1024
  h_S_ : 0 < S_.numel
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  bcast_S1024x1024x1_S1024x1024x4_0_1_2 : S1024x1024x1.BroadcastsInDim S1024x1024x4 (![0, 1, 2] : Fin 3 → Fin S1024x1024x4.rank)
  concatenates_S1024x1024x1_S1024x1024x1_S1024x1024x1_S1024x1024x1_S1024x1024x4_d2 : Shape.Concatenates [S1024x1024x1, S1024x1024x1, S1024x1024x1, S1024x1024x1] S1024x1024x4 2
  bcast_S128x1024_S128x1x1024_0_2 : S128x1024.BroadcastsInDim S128x1x1024 (![0, 2] : Fin 2 → Fin S128x1x1024.rank)
  bcast_S1024x1024_S1x1024x1024_1_2 : S1024x1024.BroadcastsInDim S1x1024x1024 (![1, 2] : Fin 2 → Fin S1x1024x1024.rank)
  bcast_S128x1x1024_S128x1024x1024_0_1_2 : S128x1x1024.BroadcastsInDim S128x1024x1024 (![0, 1, 2] : Fin 3 → Fin S128x1024x1024.rank)
  bcast_S1x1024x1024_S128x1024x1024_0_1_2 : S1x1024x1024.BroadcastsInDim S128x1024x1024 (![0, 1, 2] : Fin 3 → Fin S128x1024x1024.rank)
  reducesTo_S128x1024x1024_S128x1024_d2 : S128x1024x1024.ReducesTo [2] S128x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S_S512x1024x4 : S_.BroadcastsInDim S512x1024x4 (![] : Fin 0 → Fin S512x1024x4.rank)
  reducesTo_S512x1024x4_S512x1024_d2 : S512x1024x4.ReducesTo [2] S512x1024
  bcast_S_S512x1024 : S_.BroadcastsInDim S512x1024 (![] : Fin 0 → Fin S512x1024.rank)
  bcast_S512x1024_S512x1024x1_0_1 : S512x1024.BroadcastsInDim S512x1024x1 (![0, 1] : Fin 2 → Fin S512x1024x1.rank)
  bcast_S512x1024x1_S512x1024x4_0_1_2 : S512x1024x1.BroadcastsInDim S512x1024x4 (![0, 1, 2] : Fin 3 → Fin S512x1024x4.rank)
  concatenates_S512x1024x1_S512x1024x1_S512x1024x1_S512x1024x1_S512x1024x4_d2 : Shape.Concatenates [S512x1024x1, S512x1024x1, S512x1024x1, S512x1024x1] S512x1024x4 2
  bcast_S512x1024_S1x512x1024_1_2 : S512x1024.BroadcastsInDim S1x512x1024 (![1, 2] : Fin 2 → Fin S1x512x1024.rank)
  bcast_S128x1x1024_S128x512x1024_0_1_2 : S128x1x1024.BroadcastsInDim S128x512x1024 (![0, 1, 2] : Fin 3 → Fin S128x512x1024.rank)
  bcast_S1x512x1024_S128x512x1024_0_1_2 : S1x512x1024.BroadcastsInDim S128x512x1024 (![0, 1, 2] : Fin 3 → Fin S128x512x1024.rank)
  reducesTo_S128x512x1024_S128x512_d2 : S128x512x1024.ReducesTo [2] S128x512
  bcast_S512_S1x512_1 : S512.BroadcastsInDim S1x512 (![1] : Fin 1 → Fin S1x512.rank)
  bcast_S1x512_S128x512_0_1 : S1x512.BroadcastsInDim S128x512 (![0, 1] : Fin 2 → Fin S128x512.rank)

variable [Facts₀]

class Facts : Prop extends Facts₀ where

variable [Facts]
-- ==== Proof.KI.R0Base.lean ====
/-
  The first layer's kernel region, the ground its frame stands on: each window's block at a grid point read off the
  arrays the region finds; every input window holds its block at every point (the bias window, fetched only when the
  output column block changes, included); the two branch conditions of the body in closed form over the grid — the
  accumulator is reset in the first column block of the reduction axis and the output is written in the last —; where the
  output window is idle; and the memrefs the body is called with.
-/
import proofs.«136982_j44813688767075_1_alg».proof.Proof.Gen.KernelIdeal.Launch
import proofs.«136982_j44813688767075_1_alg».proof.Proof.Gen.KernelIdeal.Skeleton
import proofs.«136982_j44813688767075_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' window holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias window holds its block at every point: where it is not fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The logits' window holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branches, over the grid -/

/-- The accumulator is reset: the reduction coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The output is written: the reduction coordinate is the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last reduction step the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last reduction step it is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S128x128 .f32 := (Memref.whole cc0_stg4_0 : Memref sig .tc .vmem S128x128 .f32).view
abbrev ms0_0 (t : Fin cfg0.N) : Memref sig .tc .vmem S128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S128x128 .f32 := Memref.whole cc0_scratch0
abbrev VS0_0 : View sig .tc .vmem S128x128 .f32 := scM0_0.view

end Cert.KernelIdeal.Fr

end
-- ==== Proof.KI.R0Phi.lean ====
/-
  The first layer's region: the invariant of a body that keeps nothing, spelt out — the accumulator owned at some
  contents, the core's other scoped buffers that this region does not stage each at some contents, the generator
  register at some state — so that the accumulator can be taken out of it and put back.
-/
import proofs.«136982_j44813688767075_1_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The core's scoped buffers that this region neither stages nor accumulates in, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

theorem PhiA0_raw (c : Dev nD) :
    (Pipeline.ΦA spec0 c : sProp 𝕄) = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

/-- Out of the invariant: the accumulator at some contents, the rest, the generator register. -/
theorem PhiA0_out (c : Dev nD) :
    (Pipeline.ΦA spec0 c : sProp 𝕄) ⊢ iprop(iprop((∃ d, owns (c : Thread nD τ) scM0_0 fullShare d) ∗ rest0 (F := F) c) ∗ (∃ r, prngReg c r)) := by
  rw [PhiA0_raw]; unfold rest0
  iintro ⟨⟨HS, H1, H2, H3, H4, H5, H6, H7, H8, H9, H10, H11⟩, Hg⟩
  isplitl [HS H1 H2 H3 H4 H5 H6 H7 H8 H9 H10 H11]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

/-- And back. -/
theorem PhiA0_in (c : Dev nD) :
    (iprop(iprop((∃ d, owns (c : Thread nD τ) scM0_0 fullShare d) ∗ rest0 (F := F) c) ∗ (∃ r, prngReg c r)) : sProp 𝕄) ⊢ Pipeline.ΦA spec0 c := by
  rw [PhiA0_raw]; unfold rest0
  iintro ⟨⟨HS, H1, H2, H3, H4, H5, H6, H7, H8, H9, H10, H11⟩, Hg⟩
  isplitl [HS H1 H2 H3 H4 H5 H6 H7 H8 H9 H10 H11]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

end Cert.KernelIdeal.Fr

end
-- ==== Proof.KI.R0RunA.lean ====
/-
  The first layer's body where the reduction coordinate is zero and not the last: the accumulator is reset to zero and
  then takes the block's partial sums; the output window is not touched.
-/
import proofs.«136982_j44813688767075_1_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator at such a point (last first), with the body's run: the
    inputs' memrefs at their contents and the output's at contents handed back untouched, the accumulator at anything. -/
noncomputable def kernelRun0_A (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4x128x128 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i)
    (x0 : Vec F S128x128 .f32) (x1 : Vec F S128x128 .f32) (x2 : Vec F S1x128 .f32) (x3 : Vec F S4x128x128 .f32) :
    Σ' (L4 : List (View.Piece (Elt F) S128x128 .f32)), { LS0 : List (View.Piece (Elt F) S128x128 .f32) //
      ∀ (xi4 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__layer_kernel i arg2 harg2 arg3 harg3 arg4 harg4 arg5 harg5 arg6 harg6 arg7 harg7) K } := by
  refine ⟨[], ?_, fun xi4 E K => ?run⟩
  case run =>
    simp only [cc0__layer_kernel_eq_skeleton]; unfold cc0__layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.R0RunB.lean ====
/-
  The first layer's body at an interior reduction step: the accumulator, at what the step before left, takes the
  block's partial sums; the output window is not touched.
-/
import proofs.«136982_j44813688767075_1_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator at such a point (last first), with the body's run: the
    inputs' memrefs at their contents, the output's at contents handed back untouched, the accumulator at the carried
    contents `xs0`. -/
noncomputable def kernelRun0_B (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4x128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : ¬cond0_1 i)
    (x0 : Vec F S128x128 .f32) (x1 : Vec F S128x128 .f32) (x2 : Vec F S1x128 .f32) (x3 : Vec F S4x128x128 .f32) (xs0 : Vec F S128x128 .f32) :
    Σ' (L4 : List (View.Piece (Elt F) S128x128 .f32)), { LS0 : List (View.Piece (Elt F) S128x128 .f32) //
      ∀ (xi4 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__layer_kernel i arg2 harg2 arg3 harg3 arg4 harg4 arg5 harg5 arg6 harg6 arg7 harg7) K } := by
  refine ⟨[], ?_, fun xi4 E K => ?run⟩
  case run =>
    simp only [cc0__layer_kernel_eq_skeleton]; unfold cc0__layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KI.R0RunC.lean ====
/-
  The first layer's body at the last reduction step: the accumulator takes the block's partial sums and the output
  block is written: the accumulator plus the bias row.
-/
import proofs.«136982_j44813688767075_1_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output's buffer and in the accumulator at such a point (last first), with
    the body's run: the inputs' memrefs at their contents, the output's at anything, the accumulator at the carried
    contents `xs0`. -/
noncomputable def kernelRun0_C (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4x128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x128 .f32) (x1 : Vec F S128x128 .f32) (x2 : Vec F S1x128 .f32) (x3 : Vec F S4x128x128 .f32) (xs0 : Vec F S128x128 .f32) :
    Σ' (L4 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__layer_kernel i arg2 harg2 arg3 harg3 arg4 harg4 arg5 harg5 arg6 harg6 arg7 harg7) K } := by
  refine ⟨?_, ?_, fun E K => ?run⟩
  case run =>
    simp only [cc0__layer_kernel_eq_skeleton]; unfold cc0__layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KI.R0Frame.lean ====
/-
  The first layer's kernel region as the pipeline runs it: what the accumulator and the output block hold after every
  grid point, and the proof that the body, called at any point on what the pipeline hands it, leaves exactly that.

  The grid is (output column block, reduction step), the reduction step running fastest. At reduction step 0 the
  accumulator is reset and takes the first partial sums; at every later step it adds that step's partial sums to what the
  step before left; at the last step the output block is the accumulator plus the bias row. Between grid points the
  accumulator is carried in the region's invariant at the named contents; the output window is idle, and not written
  back, except at the last reduction step.
-/
import proofs.«136982_j44813688767075_1_alg».proof.Proof.KI.R0Phi
import proofs.«136982_j44813688767075_1_alg».proof.Proof.KI.R0RunA
import proofs.«136982_j44813688767075_1_alg».proof.Proof.KI.R0RunB
import proofs.«136982_j44813688767075_1_alg».proof.Proof.KI.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Reset step: the pieces stored into the accumulator cover it. -/
theorem scover0_A_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4x128x128 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i)
    (x0 : Vec F S128x128 .f32) (x1 : Vec F S128x128 .f32) (x2 : Vec F S1x128 .f32) (x3 : Vec F S4x128x128 .f32) (y : S128x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S128x128.size (by sl_kernel_rfl) y
/-- Reset step: what the accumulator holds afterwards. -/
def sout0_A_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4x128x128 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i)
    (x0 : Vec F S128x128 .f32) (x1 : Vec F S128x128 .f32) (x2 : Vec F S1x128 .f32) (x3 : Vec F S4x128x128 .f32) : Vec F S128x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Interior step: the pieces stored into the accumulator cover it. -/
theorem scover0_B_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4x128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : ¬cond0_1 i)
    (x0 : Vec F S128x128 .f32) (x1 : Vec F S128x128 .f32) (x2 : Vec F S1x128 .f32) (x3 : Vec F S4x128x128 .f32) (xs0 : Vec F S128x128 .f32) (y : S128x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S128x128.size (by sl_kernel_rfl) y
/-- Interior step: what the accumulator holds afterwards. -/
def sout0_B_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4x128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : ¬cond0_1 i)
    (x0 : Vec F S128x128 .f32) (x1 : Vec F S128x128 .f32) (x2 : Vec F S1x128 .f32) (x3 : Vec F S4x128x128 .f32) (xs0 : Vec F S128x128 .f32) : Vec F S128x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Last step: the pieces stored into the output block cover it. -/
theorem cover0_C_4 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4x128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x128 .f32) (x1 : Vec F S128x128 .f32) (x2 : Vec F S1x128 .f32) (x3 : Vec F S4x128x128 .f32) (xs0 : Vec F S128x128 .f32) (y : S128x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S128x128.size (by sl_kernel_rfl) y
/-- Last step: what the output block holds afterwards. -/
def out0_C_4 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4x128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x128 .f32) (x1 : Vec F S128x128 .f32) (x2 : Vec F S1x128 .f32) (x3 : Vec F S4x128x128 .f32) (xs0 : Vec F S128x128 .f32) : Vec F S128x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)
/-- Last step: the pieces stored into the accumulator cover it. -/
theorem scover0_C_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4x128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x128 .f32) (x1 : Vec F S128x128 .f32) (x2 : Vec F S1x128 .f32) (x3 : Vec F S4x128x128 .f32) (xs0 : Vec F S128x128 .f32) (y : S128x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S128x128.size (by sl_kernel_rfl) y
/-- Last step: what the accumulator holds afterwards. -/
def sout0_C_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4x128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x128 .f32) (x1 : Vec F S128x128 .f32) (x2 : Vec F S1x128 .f32) (x3 : Vec F S4x128x128 .f32) (xs0 : Vec F S128x128 .f32) : Vec F S128x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- What stands for the output block at the points where the window is idle: nothing consults it. -/
def idleOut0 : Vec F S128x128 .f32 := VO0_4.read (Elt F) VO0_4.junk

section
variable (V : (c : Dev nD) → (b : Ref sig .tc) → Buf (Elt F) ((c : Thread nD τ).loc b))

/-! ## Point by point -/

/-- The output block and the accumulator after the body at position `n`: the case the closed forms select there, the
    accumulator it reads at what position `n - 1` left. -/
def outsAt0 (c : Dev nD) : (n : ℕ) → n < cfg0.N → Vec F S128x128 .f32 × Vec F S128x128 .f32
  | 0, hn => (idleOut0, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (idleOut0, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (idleOut0, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- At a reset step. -/
theorem outsAt0_A (c : Dev nD) (t : Fin cfg0.N) (h0 : t.val % 8 = 0) (h1 : ¬t.val % 8 = 7) :
    outsAt0 V c t.val t.isLt = (idleOut0, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- At an interior step: over what the step before left. -/
theorem outsAt0_B (c : Dev nD) (t : Fin cfg0.N) (h0 : ¬t.val % 8 = 0) (h1 : ¬t.val % 8 = 7) :
    outsAt0 V c t.val t.isLt = (idleOut0, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: over what the step before left. -/
theorem outsAt0_C (c : Dev nD) (t : Fin cfg0.N) (h0 : ¬t.val % 8 = 0) (h1 : t.val % 8 = 7) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried at its named contents -/

/-- Before position `n`: at the region's entry the accumulator holds anything; afterwards what position `n - 1` left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The arrays as the region finds them; after the body each input's buffer at its block and the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in
/-- The body at any point. The inputs' memrefs hold their blocks; the closed forms say which case the point is in; the
    invariant hands the body the accumulator at what the point before left (at anything at the region's first point) and
    takes it back at this point's contents; away from the last reduction step the output's buffer goes back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 64 := lt_of_lt_of_eq t.isLt (show cfg0.N = 64 from N_0)
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A_0; (try dsimp only)
    by_cases hz : t.val = 0
    · rw [PhiS0_castSucc V c t, PhiS0_zero V c _ _ hz]
      have hopen := PhiA0_out (F := F) c
      iintro ⟨HP, Ho, ⟨%d0, H0⟩, ⟨%d1, H1⟩, ⟨%d2, H2⟩, ⟨%d3, H3⟩, ⟨%d4, H4⟩⟩
      ihave HP2 := hopen $$ HP
      icases HP2 with ⟨⟨HS0, Hrest⟩, Hg⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the same back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega)]
  iintro ⟨⟨HS0, Hrest⟩, Hg⟩
  iapply (PhiA0_in (F := F) c)
  isplitl [HS0 Hrest]
  · isplitl [HS0]
    · iexists _; iexact HS0
    iexact Hrest
  iexact Hg

end

end Cert.KernelIdeal.Fr

end
-- ==== Proof.KI.R1Phi.lean ====
/-
  The second layer's region: the invariant of a body that keeps nothing, spelt out — the accumulator owned at some
  contents, the core's other scoped buffers that this region does not stage each at some contents, the generator
  register at some state — so that the accumulator can be taken out of it and put back.
-/
import proofs.«136982_j44813688767075_1_alg».proof.Proof.KI.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The core's scoped buffers that this region neither stages nor accumulates in, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

theorem PhiA1_raw (c : Dev nD) :
    (Pipeline.ΦA spec1 c : sProp 𝕄) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

/-- Out of the invariant: the accumulator at some contents, the rest, the generator register. -/
theorem PhiA1_out (c : Dev nD) :
    (Pipeline.ΦA spec1 c : sProp 𝕄) ⊢ iprop(iprop((∃ d, owns (c : Thread nD τ) scM1_0 fullShare d) ∗ rest1 (F := F) c) ∗ (∃ r, prngReg c r)) := by
  rw [PhiA1_raw]; unfold rest1
  iintro ⟨⟨H1, H2, H3, H4, H5, H6, H7, H8, H9, H10, H11, HS⟩, Hg⟩
  isplitl [HS H1 H2 H3 H4 H5 H6 H7 H8 H9 H10 H11]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

/-- And back. -/
theorem PhiA1_in (c : Dev nD) :
    (iprop(iprop((∃ d, owns (c : Thread nD τ) scM1_0 fullShare d) ∗ rest1 (F := F) c) ∗ (∃ r, prngReg c r)) : sProp 𝕄) ⊢ Pipeline.ΦA spec1 c := by
  rw [PhiA1_raw]; unfold rest1
  iintro ⟨⟨HS, H1, H2, H3, H4, H5, H6, H7, H8, H9, H10, H11⟩, Hg⟩
  isplitl [HS H1 H2 H3 H4 H5 H6 H7 H8 H9 H10 H11]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  iexact Hg

end Cert.KernelIdeal.Fr

end
-- ==== Proof.KI.Run.lean ====
/-
  The whole program as the launch runs it: host operations, the first layer's region, host operations, the second
  layer's region. The buffer contents at each boundary are a fold from the launch memory: a host stretch applies its
  operations; a region leaves its arrays at what its write-backs leave and every other buffer as entered. Every weakly fair
  execution terminates with every unscoped buffer at the last boundary's contents; read at the argument arrays, which no
  item writes, that is the frame.
-/
import proofs.«136982_j44813688767075_1_alg».proof.Proof.KI.R0Frame
import proofs.«136982_j44813688767075_1_alg».proof.Proof.KI.R1Frame
import proofs.«136982_j44813688767075_1_alg».proof.Proof.Gen.KernelIdeal.Regions
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 1).trans (((dat1 (V3 m ρ) c).arrAt_in 1 rfl _).trans (A_eq1 (V3 m ρ) c 1))
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first layer's region over the thread state: entered with every unscoped buffer at the contents before it,
    left with the region's arrays at what the pipeline leaves and every other buffer as entered. Its arrays are split out
    of the unscoped buffers and put back; the generator register and the scoped rest go into the invariant and come
    out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show (iprop((∃ r, prngReg c r) ∗ Pipeline.prefHeld (pcfgs (F := F) 0).pre c (fun _ => fullShare) (adm 0).1 ∗ Pipeline.scopedRest (Pipeline.pin (pcfgs (F := F)) adm 0).spec c) : sProp 𝕄) ⊢ Pipeline.ΦA spec0 c from by
      unfold Pipeline.ΦA
      iintro ⟨Hp, -, Hr⟩
      isplitl [Hr]; · iexact Hr
      iexact Hp).trans (hin0 (V1 m ρ) c)
  hout c := (hout0 (V1 m ρ) c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's region over the thread state: entered with every unscoped buffer at the contents before it,
    left with the region's arrays at what the pipeline leaves and every other buffer as entered. Its arrays are split out
    of the unscoped buffers and put back; the generator register and the scoped rest go into the invariant and come
    out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show (iprop((∃ r, prngReg c r) ∗ Pipeline.prefHeld (pcfgs (F := F) 1).pre c (fun _ => fullShare) (adm 1).1 ∗ Pipeline.scopedRest (Pipeline.pin (pcfgs (F := F)) adm 1).spec c) : sProp 𝕄) ⊢ Pipeline.ΦA spec1 c from by
      unfold Pipeline.ΦA
      iintro ⟨Hp, -, Hr⟩
      isplitl [Hr]; · iexact Hr
      iexact Hp).trans (hin1 (V3 m ρ) c)
  hout c := (hout1 (V3 m ρ) c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

end Cert.KernelIdeal.Fr

end
-- ==== Proof.KI.R0Pieces.lean ====
/-
  What the first layer's body leaves, case by case, as the body's own arithmetic: after a reset step the accumulator is
  one step from the reset value; after any other step it is one step from what it held; at the last step the output block
  is the new accumulator plus the bias row.
-/
import proofs.«136982_j44813688767075_1_alg».proof.Proof.KI.R0Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A pair of zero offsets is the zero function. -/
private theorem offs2_zero : (![0, 0] : Fin 2 → Nat) = fun _ => 0 := funext fun a => by fin_cases a <;> rfl

/-- A triple of zero offsets is the zero function. -/
private theorem offs3_zero : (![0, 0, 0] : Fin 3 → Nat) = fun _ => 0 := funext fun a => by fin_cases a <;> rfl

theorem sout0_A_0_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4x128x128 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i)
    (x0 : Vec F S128x128 .f32) (x1 : Vec F S128x128 .f32) (x2 : Vec F S1x128 .f32) (x3 : Vec F S4x128x128 .f32) :
    sout0_A_0 c i arg2 harg2 arg3 harg3 arg4 harg4 arg5 harg5 arg6 harg6 arg7 harg7 hc0 hc1 x0 x1 x2 x3 = k0_pay1 (k0_pay4 x1 x3 x0 (k0_pay3 (F := F))) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S128x128) offs2_zero, View.readCov_unit_zero (S := S128x128) _ offs2_zero]
  simp only [View.readAt_eq_ld, harg2.read_unread, harg3.read_unread, harg5.read_unread,
    View.ld_unit_zero (S := S128x128) offs2_zero, View.ld_unit_zero (S := S4x128x128) offs3_zero]

theorem sout0_B_0_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4x128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : ¬cond0_1 i)
    (x0 : Vec F S128x128 .f32) (x1 : Vec F S128x128 .f32) (x2 : Vec F S1x128 .f32) (x3 : Vec F S4x128x128 .f32) (xs0 : Vec F S128x128 .f32) :
    sout0_B_0 c i arg2 harg2 arg3 harg3 arg4 harg4 arg5 harg5 arg6 harg6 arg7 harg7 hc0 hc1 x0 x1 x2 x3 xs0 = k0_pay1 (k0_pay4 x1 x3 x0 xs0) := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S128x128) offs2_zero]
  simp only [View.readAt_eq_ld, harg2.read_unread, harg3.read_unread, harg5.read_unread, harg7.read_unread,
    View.ld_unit_zero (S := S128x128) offs2_zero, View.ld_unit_zero (S := S4x128x128) offs3_zero]

theorem sout0_C_0_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4x128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x128 .f32) (x1 : Vec F S128x128 .f32) (x2 : Vec F S1x128 .f32) (x3 : Vec F S4x128x128 .f32) (xs0 : Vec F S128x128 .f32) :
    sout0_C_0 c i arg2 harg2 arg3 harg3 arg4 harg4 arg5 harg5 arg6 harg6 arg7 harg7 hc0 hc1 x0 x1 x2 x3 xs0 = k0_pay1 (k0_pay4 x1 x3 x0 xs0) := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S128x128) offs2_zero]
  simp only [View.readAt_eq_ld, harg2.read_unread, harg3.read_unread, harg5.read_unread, harg7.read_unread,
    View.ld_unit_zero (S := S128x128) offs2_zero, View.ld_unit_zero (S := S4x128x128) offs3_zero]

theorem out0_C_4_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S4x128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i)
    (x0 : Vec F S128x128 .f32) (x1 : Vec F S128x128 .f32) (x2 : Vec F S1x128 .f32) (x3 : Vec F S4x128x128 .f32) (xs0 : Vec F S128x128 .f32) :
    out0_C_4 c i arg2 harg2 arg3 harg3 arg4 harg4 arg5 harg5 arg6 harg6 arg7 harg7 hc0 hc1 x0 x1 x2 x3 xs0 = k0_pay2 (k0_pay1 (k0_pay4 x1 x3 x0 xs0)) x2 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S128x128) offs2_zero, View.readCov_unit_zero (S := S128x128) _ offs2_zero]
  simp only [View.readAt_eq_ld, harg2.read_unread, harg3.read_unread, harg4.read_unread, harg5.read_unread,
    harg7.read_unread, View.ld_unit_zero (S := S128x128) offs2_zero, View.ld_unit_zero (S := S4x128x128) offs3_zero,
    View.ld_unit_zero (S := S1x128) offs2_zero]

end Cert.KernelIdeal.Fr

end
-- ==== Proof.Net.Spec.lean ====
/-
  The function both programs compute, on the extended reals.

  One layer mixes each weight with its hyperbolic tangent and its sine — the mixing weights a softmax over four
  logits, the second of the four atoms being identically zero —, multiplies the mixed weight by the input entry,
  applies the layer's activation, sums over the input axis and adds the bias:

      out b o = (∑ i, act (h b i * mix (lg o i) (w o i))) + bias o.

  The network is two such layers, the first with activation tanh, the second with none.
-/
import Idealize.ShloMosaic.PureOps.Ideal

noncomputable section

namespace Cert.Net

open Idealize.ShloMosaic

/-- The largest of four logits as both programs take it: a fold of `max` from `-∞`, then `max (-∞) ·` once more. -/
def top4 (l : Fin 4 → EReal) : EReal := max ⊥ ((Finset.univ : Finset (Fin 4)).fold max ⊥ l)

/-- The softmax's numerator: the exponential of a logit less the largest. -/
def num (l : Fin 4 → EReal) (k : Fin 4) : EReal := Ideal.exp (l k - top4 l)

/-- The softmax weight of atom `k`. -/
def wt (l : Fin 4 → EReal) (k : Fin 4) : EReal := Ideal.div (num l k) (∑ k' : Fin 4, num l k')

/-- The mixed weight: atoms identity, zero, tanh, sine under the softmax weights; the zero atom contributes nothing. -/
def mix (l : Fin 4 → EReal) (w : EReal) : EReal := wt l 0 * w + wt l 2 * Ideal.tanh w + wt l 3 * Ideal.sin w

/-- One layer. -/
def layer {B O I : ℕ} (act : EReal → EReal) (h : Fin B → Fin I → EReal) (w : Fin O → Fin I → EReal) (bias : Fin O → EReal)
    (lg : Fin O → Fin I → Fin 4 → EReal) (b : Fin B) (o : Fin O) : EReal :=
  (∑ i : Fin I, act (h b i * mix (lg o i) (w o i))) + bias o

/-- The two layers. -/
def net {B D0 D1 D2 : ℕ} (x : Fin B → Fin D0 → EReal) (w0 : Fin D1 → Fin D0 → EReal) (b0 : Fin D1 → EReal) (l0 : Fin D1 → Fin D0 → Fin 4 → EReal)
    (w1 : Fin D2 → Fin D1 → EReal) (b1 : Fin D2 → EReal) (l1 : Fin D2 → Fin D1 → Fin 4 → EReal) : Fin B → Fin D2 → EReal :=
  layer id (layer Ideal.tanh x w0 b0 l0) w1 b1 l1

end Cert.Net

end
-- ==== Proof.KI.R0Pay.lean ====
/-
  The first layer's body, its arithmetic read at an index on the extended reals. One reduction step adds to the
  accumulator, at row b and output column o of the block, the sum over the block's 128 input columns j of
  tanh (h b j * mix (logits · o j) (w o j)); the reset value is zero; the output block is the accumulator plus the bias row.
-/
import proofs.«136982_j44813688767075_1_alg».proof.Proof.Gen.KernelIdeal.Skeleton
import proofs.«136982_j44813688767075_1_alg».proof.Proof.Net.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The first layer's activation. -/
abbrev act0 : EReal → EReal := Ideal.tanh

/-! ## Exponential, hyperbolic tangent and sine of a block at an index -/

/-- The exponential of a block, at an index, is the exponential of the entry. -/
theorem exp_at_p0 {s : Shape} (a : FVec Ideal s .f32) (i : s.Idx) : exp a i = Ideal.exp (a i) := rfl
/-- The hyperbolic tangent of a block, at an index, is that of the entry. -/
theorem tanh_at_p0 {s : Shape} (a : FVec Ideal s .f32) (i : s.Idx) : tanh a i = Ideal.tanh (a i) := rfl
/-- The sine of a block, at an index, is that of the entry. -/
theorem sin_at_p0 {s : Shape} (a : FVec Ideal s .f32) (i : s.Idx) : sin a i = Ideal.sin (a i) := rfl

/-! ## The literal -∞ -/

/-- The word 0xFF800000 is -∞. -/
theorem negInf_eq_p0 : (FloatOps.ofBits .f32 0xFF800000#32 : Ideal .f32) = (⊥ : EReal) := by
  show Ideal.ofBits .f32 0xFF800000#32 = ⊥
  simp [Ideal.ofBits, Ideal.ieee]

/-! ## Broadcasts, the added unit axis and the atoms' slices, at explicit coordinates -/

/-- One 128 x 128 sheet copied over the four atoms reads the sheet. -/
theorem bc_1ab_4ab_p0 (x : FVec Ideal S1x128x128 .f32) (hb : S1x128x128.Broadcasts S4x128x128) (k : Fin 4) (o j : Fin 128) :
    broadcastTo S4x128x128 x hb (ix3 k o j) = x (ix3 (0 : Fin 1) o j) :=
  broadcastTo_apply x hb (ix3 k o j) (ix3 (0 : Fin 1) o j) fun ax =>
    match ax with
    | ⟨0, _⟩ => rfl
    | ⟨1, _⟩ => rfl
    | ⟨2, _⟩ => rfl

/-- One 128 x 128 sheet copied over the 128 rows reads the sheet. -/
theorem bc_1ab_cab_p0 (x : FVec Ideal S1x128x128 .f32) (hb : S1x128x128.Broadcasts S128x128x128) (b o j : Fin 128) :
    broadcastTo S128x128x128 x hb (ix3 b o j) = x (ix3 (0 : Fin 1) o j) :=
  broadcastTo_apply x hb (ix3 b o j) (ix3 (0 : Fin 1) o j) fun ax =>
    match ax with
    | ⟨0, _⟩ => rfl
    | ⟨1, _⟩ => rfl
    | ⟨2, _⟩ => rfl

/-- A 128 x 1 x 128 block copied over the 128 output columns reads its one middle entry. -/
theorem bc_a1b_acb_p0 (x : FVec Ideal S128x1x128 .f32) (hb : S128x1x128.Broadcasts S128x128x128) (b o j : Fin 128) :
    broadcastTo S128x128x128 x hb (ix3 b o j) = x (ix3 b (0 : Fin 1) j) :=
  broadcastTo_apply x hb (ix3 b o j) (ix3 b (0 : Fin 1) j) fun ax =>
    match ax with
    | ⟨0, _⟩ => rfl
    | ⟨1, _⟩ => rfl
    | ⟨2, _⟩ => rfl

/-- A 128 x 128 block with a unit axis put in the middle reads the block. -/
theorem sc_ab_a1b_p0 (x : FVec Ideal S128x128 .f32) (hc : S128x128.ShapeCasts S128x1x128) (b : Fin 128) (u : Fin 1) (j : Fin 128) :
    shapeCast S128x1x128 x hc (ix3 b u j) = x (ix2 b j) :=
  shapeCast_apply x hc _ _ (by
    have hu : u.val = 0 := by omega
    rw [Shape.rowMajor_val_three, Shape.rowMajor_val_two]
    show b.val * 128 + j.val = (b.val * 1 + u.val) * 128 + j.val
    rw [hu]; omega)

/-- The sheet of atom `c` cut out of the four reads atom `c`. -/
theorem slice_atom_p0 (c : Nat) (x : FVec Ideal S4x128x128 .f32) (hs : S4x128x128.Slices ![c, 0, 0] S1x128x128)
    (k : Fin 4) (hk : k.val = c) (u : Fin 1) (o j : Fin 128) :
    extractStridedSlice S1x128x128 ![c, 0, 0] x hs (ix3 u o j) = x (ix3 k o j) :=
  extractStridedSlice_apply _ x hs (ix3 u o j) (ix3 k o j) fun ax =>
    match ax with
    | ⟨0, _⟩ => by
        have hu : u.val = 0 := by omega
        show k.val = c + u.val
        omega
    | ⟨1, _⟩ => by show o.val = 0 + o.val; omega
    | ⟨2, _⟩ => by show j.val = 0 + j.val; omega

/-- Atom 0's sheet. -/
theorem slice_atom0_p0 (x : FVec Ideal S4x128x128 .f32) (hs : S4x128x128.Slices ![0, 0, 0] S1x128x128) (u : Fin 1) (o j : Fin 128) :
    extractStridedSlice S1x128x128 ![0, 0, 0] x hs (ix3 u o j) = x (ix3 (0 : Fin 4) o j) :=
  slice_atom_p0 0 x hs 0 rfl u o j

/-- Atom 2's sheet. -/
theorem slice_atom2_p0 (x : FVec Ideal S4x128x128 .f32) (hs : S4x128x128.Slices ![2, 0, 0] S1x128x128) (u : Fin 1) (o j : Fin 128) :
    extractStridedSlice S1x128x128 ![2, 0, 0] x hs (ix3 u o j) = x (ix3 (2 : Fin 4) o j) :=
  slice_atom_p0 2 x hs 2 rfl u o j

/-- Atom 3's sheet. -/
theorem slice_atom3_p0 (x : FVec Ideal S4x128x128 .f32) (hs : S4x128x128.Slices ![3, 0, 0] S1x128x128) (u : Fin 1) (o j : Fin 128) :
    extractStridedSlice S1x128x128 ![3, 0, 0] x hs (ix3 u o j) = x (ix3 (3 : Fin 4) o j) :=
  slice_atom_p0 3 x hs 3 rfl u o j

/-! ## The index a one-axis reduction reads, by coordinates -/

/-- Over the atoms' axis: atom `k` put in front of `(o, j)`. -/
theorem lift0_eq_p0 (hr : S4x128x128.Reduces [0] S128x128) (o j : Fin 128) (k : Fin 4) :
    hr.lift (ix2 o j) k = ix3 k o j := by
  funext c
  match c with
  | ⟨0, _⟩ => exact Fin.ext rfl
  | ⟨1, _⟩ => exact Fin.ext rfl
  | ⟨2, _⟩ => exact Fin.ext rfl

/-- Over the input columns' axis: column `j` put behind `(b, o)`. -/
theorem lift2_eq_p0 (hr : S128x128x128.Reduces [2] S128x128) (b o : Fin 128) (j : Fin 128) :
    hr.lift (ix2 b o) j = ix3 b o j := by
  funext c
  match c with
  | ⟨0, _⟩ => exact Fin.ext rfl
  | ⟨1, _⟩ => exact Fin.ext rfl
  | ⟨2, _⟩ => exact Fin.ext rfl

/-! ## The three reductions at explicit coordinates -/

/-- The maximum over the four atoms from -∞, at `(o, j)`: the fold of `max` over the atoms' entries. -/
theorem max_red0_p0 (x : FVec Ideal S4x128x128 .f32) (o j : Fin 128) :
    multiReduction .maximumf [0] S128x128 x 0xFF800000#32 reduces_S4x128x128_S128x128 (.inl rfl) rfl (ix2 o j)
      = (Finset.univ : Finset (Fin 4)).fold max ⊥ (fun k => x (ix3 k o j)) := by
  refine (Ideal.multiReduction_maximumf_single x 0xFF800000#32 reduces_S4x128x128_S128x128 (.inl rfl) rfl (ix2 o j)).trans ?_
  rw [negInf_eq_p0]
  have e : (x ∘ reduces_S4x128x128_S128x128.lift (ix2 o j)) = fun k : Fin 4 => x (ix3 k o j) :=
    funext fun k => congrArg x (lift0_eq_p0 reduces_S4x128x128_S128x128 o j k)
  exact congrArg (fun f => (Finset.univ : Finset (Fin 4)).fold max ⊥ f) e

/-- The sum over the four atoms, at `(o, j)`. -/
theorem add_red0_p0 (x : FVec Ideal S4x128x128 .f32) (o j : Fin 128) :
    multiReduction .add [0] S128x128 x 0x00000000#32 reduces_S4x128x128_S128x128 (.inl rfl) rfl (ix2 o j)
      = ∑ k : Fin 4, x (ix3 k o j) := by
  refine (Ideal.multiReduction_add_single x _ reduces_S4x128x128_S128x128 (.inl rfl) rfl (ix2 o j)).trans ?_
  exact Finset.sum_congr rfl fun k _ => congrArg x (lift0_eq_p0 reduces_S4x128x128_S128x128 o j k)

/-- The sum over the 128 input columns, at `(b, o)`. -/
theorem add_red2_p0 (x : FVec Ideal S128x128x128 .f32) (b o : Fin 128) :
    multiReduction .add [2] S128x128 x 0x00000000#32 reduces_S128x128x128_S128x128 (.inl rfl) rfl (ix2 b o)
      = ∑ j : Fin 128, x (ix3 b o j) := by
  refine (Ideal.multiReduction_add_single x _ reduces_S128x128x128_S128x128 (.inl rfl) rfl (ix2 b o)).trans ?_
  exact Finset.sum_congr rfl fun j _ => congrArg x (lift2_eq_p0 reduces_S128x128x128_S128x128 b o j)

/-! ## The four payloads -/

/-- One reduction step at an index of the block. -/
theorem pay4_0_at (w : Vec Ideal S128x128 .f32) (lg : Vec Ideal S4x128x128 .f32) (h acc : Vec Ideal S128x128 .f32) (b o : Fin 128) :
    k0_pay4 (F := Ideal) w lg h acc (ix2 b o)
      = acc (ix2 b o) + ∑ j : Fin 128, act0 (h (ix2 b j) * Cert.Net.mix (fun k => lg (ix3 k o j)) (w (ix2 o j))) := by
  unfold k0_pay4
  simp only [addf_apply]
  rw [add_red2_p0]
  simp only [tanh_at_p0, mulf_apply, addf_apply, bc_a1b_acb_p0, bc_1ab_cab_p0, sc_ab_a1b_p0, shapeCast_ab_1ab_apply,
    shapeCast_1ab_ab_apply, slice_atom0_p0, slice_atom2_p0, slice_atom3_p0, divf_apply, exp_at_p0, subf_apply, bc_1ab_4ab_p0,
    maximumf_apply, broadcast_apply, sin_at_p0, shapeCast_self, negInf_eq_p0]
  refine congrArg (fun t => acc (ix2 b o) + t) (Finset.sum_congr rfl fun j _ => ?_)
  rw [max_red0_p0, add_red0_p0]
  simp only [exp_at_p0, subf_apply, bc_1ab_4ab_p0, shapeCast_ab_1ab_apply, maximumf_apply, broadcast_apply]
  rw [max_red0_p0]
  rfl

/-- Storing the accumulator changes nothing of it. -/
theorem pay1_0 (v : FVec Ideal S128x128 .f32) : k0_pay1 (F := Ideal) v = v := by
  unfold k0_pay1
  exact shapeCast_self v _

/-- The reset value. -/
theorem pay3_0_at (b o : Fin 128) : k0_pay3 (F := Ideal) (ix2 b o) = 0 := by
  unfold k0_pay3
  simp only [shapeCast_self, broadcast_apply]
  exact Ideal.ofBits_zero_f32

/-- The output block: the accumulator plus the bias row. -/
theorem pay2_0_at (acc : Vec Ideal S128x128 .f32) (bias : Vec Ideal S1x128 .f32) (b o : Fin 128) :
    k0_pay2 (F := Ideal) acc bias (ix2 b o) = acc (ix2 b o) + bias (ix2 0 o) := by
  unfold k0_pay2
  simp only [addf_apply, shapeCast_self, broadcastTo_1b_ab_apply]

end Cert.KernelIdeal.Fr

end
-- ==== Proof.KI.R0Value.lean ====
/-
  The first layer's region, its result: after the last grid point the output array holds, at row p and column n, the
  layer of the specification — the sum over all 1024 input columns, taken eight blocks of 128 at a time in the
  accumulator, plus the bias.
-/
import proofs.«136982_j44813688767075_1_alg».proof.Proof.KI.R0Pieces
import proofs.«136982_j44813688767075_1_alg».proof.Proof.KI.R0Pay
import Mathlib.Algebra.BigOperators.Fin
import Mathlib.Data.Fintype.BigOperators
import Mathlib.Logic.Equiv.Fin.Basic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

local notation "𝕄" => MT nD τ sig Unit (Elt Ideal) ℕ (UR sig nD τ) ℕ

/-- The output dimension of the layer, and the number of its column blocks. -/
local notation "OUTD" => 1024
local notation "NOB" => 8
/-- The shape of the output array (the activations' array has its own, spelled out where it occurs). -/
local notation "SOUT" => S128x1024

/-! ## Sums by blocks -/

/-- A sum taken `a` blocks of `b` consecutive indices at a time is the sum over all `a * b` indices. -/
theorem sum_blocks0 {M : Type*} [AddCommMonoid M] (a b : ℕ) (f : ℕ → M) :
    ∑ s ∈ Finset.range a, ∑ j : Fin b, f (s * b + j.val) = ∑ i : Fin (a * b), f i.val := by
  rw [← Fin.sum_univ_eq_sum_range (fun s => ∑ j : Fin b, f (s * b + j.val)) a]
  rw [← (finProdFinEquiv (m := a) (n := b)).sum_comp (fun i => f i.val), Fintype.sum_prod_type]
  refine Finset.sum_congr rfl fun s _ => Finset.sum_congr rfl fun j _ => ?_
  rw [finProdFinEquiv_apply_val, Nat.add_comm, Nat.mul_comm]

/-- An input column, named by a natural number (taken modulo the input dimension). -/
def icol0 (i : ℕ) : Fin 1024 := ⟨i % 1024, Nat.mod_lt _ (by decide)⟩
/-- An output column, named by a natural number (taken modulo the output dimension). -/
def ocol0 (i : ℕ) : Fin OUTD := ⟨i % OUTD, Nat.mod_lt _ (by decide)⟩

theorem icol0_val (i : Fin 1024) : icol0 i.val = i := Fin.ext (Nat.mod_eq_of_lt i.isLt)
theorem ocol0_val (i : Fin OUTD) : ocol0 i.val = i := Fin.ext (Nat.mod_eq_of_lt i.isLt)

/-- One term of the layer's sum: row `p`, output column `n`, input column `i`. -/
def term0 (H : S128x1024.Idx → EReal) (W : S1024x1024.Idx → EReal) (L : S4x1024x1024.Idx → EReal)
    (p : Fin 128) (n : Fin OUTD) (i : Fin 1024) : EReal :=
  act0 (H (ix2 p i) * Cert.Net.mix (fun k => L (ix3 k n i)) (W (ix2 n i)))

/-- The accumulator's contents after reduction step `r` of output column block `q`, at row `b` and column `oo` of the
    block: the terms of the input columns of the blocks `0 … r`. -/
def psum0 (H : S128x1024.Idx → EReal) (W : S1024x1024.Idx → EReal) (L : S4x1024x1024.Idx → EReal)
    (b : Fin 128) (q : ℕ) (oo : Fin 128) (r : ℕ) : EReal :=
  ∑ s ∈ Finset.range (r + 1), ∑ j : Fin 128, term0 H W L b (ocol0 (q * 128 + oo.val)) (icol0 (s * 128 + j.val))

theorem psum0_zero (H : S128x1024.Idx → EReal) (W : S1024x1024.Idx → EReal) (L : S4x1024x1024.Idx → EReal)
    (b : Fin 128) (q : ℕ) (oo : Fin 128) :
    psum0 H W L b q oo 0 = ∑ j : Fin 128, term0 H W L b (ocol0 (q * 128 + oo.val)) (icol0 (0 * 128 + j.val)) := by
  unfold psum0; rw [Finset.sum_range_one]

theorem psum0_succ (H : S128x1024.Idx → EReal) (W : S1024x1024.Idx → EReal) (L : S4x1024x1024.Idx → EReal)
    (b : Fin 128) (q : ℕ) (oo : Fin 128) (r : ℕ) :
    psum0 H W L b q oo (r + 1) = psum0 H W L b q oo r + ∑ j : Fin 128, term0 H W L b (ocol0 (q * 128 + oo.val)) (icol0 ((r + 1) * 128 + j.val)) := by
  unfold psum0; rw [Finset.sum_range_succ _ (r + 1)]

/-- After the last reduction step the accumulator holds the whole sum over the input columns. -/
theorem psum0_last (H : S128x1024.Idx → EReal) (W : S1024x1024.Idx → EReal) (L : S4x1024x1024.Idx → EReal)
    (b : Fin 128) (q : ℕ) (oo : Fin 128) :
    psum0 H W L b q oo 7 = ∑ i : Fin 1024, term0 H W L b (ocol0 (q * 128 + oo.val)) i := by
  unfold psum0
  refine (sum_blocks0 8 128 (fun i => term0 H W L b (ocol0 (q * 128 + oo.val)) (icol0 i))).trans ?_
  exact Finset.sum_congr rfl fun i _ => by rw [icol0_val]

/-- One reduction step at an index of the block, the blocks read where they lie in their arrays: column block `q` of the
    output, block `r` of the input columns. -/
theorem step0_at (H : S128x1024.Idx → EReal) (W : S1024x1024.Idx → EReal) (L : S4x1024x1024.Idx → EReal) (q r : ℕ)
    (w : Vec Ideal S128x128 .f32) (lg : Vec Ideal S4x128x128 .f32) (h acc : Vec Ideal S128x128 .f32)
    (hh : ∀ b j : Fin 128, h (ix2 b j) = H (ix2 b (icol0 (r * 128 + j.val))))
    (hw : ∀ o j : Fin 128, w (ix2 o j) = W (ix2 (ocol0 (q * 128 + o.val)) (icol0 (r * 128 + j.val))))
    (hl : ∀ (k : Fin 4) (o j : Fin 128), lg (ix3 k o j) = L (ix3 k (ocol0 (q * 128 + o.val)) (icol0 (r * 128 + j.val))))
    (b oo : Fin 128) :
    k0_pay4 (F := Ideal) w lg h acc (ix2 b oo)
      = acc (ix2 b oo) + ∑ j : Fin 128, term0 H W L b (ocol0 (q * 128 + oo.val)) (icol0 (r * 128 + j.val)) := by
  rw [pay4_0_at w lg h acc b oo]
  congr 1
  refine Finset.sum_congr rfl fun j _ => ?_
  unfold term0
  rw [hh b j, hw oo j]
  rw [show (fun k => lg (ix3 k oo j)) = fun k => L (ix3 k (ocol0 (q * 128 + oo.val)) (icol0 (r * 128 + j.val))) from
    funext fun k => hl k oo j]

/-! ## The blocks, read where they lie in their arrays -/

/-- The block indices of the five windows at a grid point: the output column block is the point's quotient by eight,
    the block of input columns its remainder. -/
theorem idx_facts0 : ∀ t : Fin cfg0.N,
    win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 2) = 0 ∧ win0_2.index t (1 : Fin 2) = t.val / 8
    ∧ win0_3.index t (0 : Fin 3) = 0 ∧ win0_3.index t (1 : Fin 3) = t.val / 8 ∧ win0_3.index t (2 : Fin 3) = t.val % 8
    ∧ win0_4.index t (0 : Fin 2) = 0 ∧ win0_4.index t (1 : Fin 2) = t.val / 8 :=
  (by decide +kernel : ∀ t : Fin grid0.N, _)

variable (V : (c : Dev nD) → (b : Ref sig .tc) → Buf (Elt Ideal) ((c : Thread nD τ).loc b))

/-- The region's arrays at their literal types: activations, weights, bias row, logits. -/
abbrev arrH0 (c : Dev nD) : S128x1024.Idx → EReal := V c main_arg0
abbrev arrW0 (c : Dev nD) : S1024x1024.Idx → EReal := V c main_arg1
abbrev arrB0 (c : Dev nD) : S1x1024.Idx → EReal := V c main_v2
abbrev arrL0 (c : Dev nD) : S4x1024x1024.Idx → EReal := V c main_v0

/-- The activations' block at point `t`: all rows, the input columns of block `t % 8`. -/
theorem blkH0_at (c : Dev nD) (t : Fin cfg0.N) (b j : Fin 128) :
    (iblk0 V c 0 t : Vec Ideal S128x128 .f32) (ix2 b j) = arrH0 V c (ix2 b (icol0 (t.val % 8 * 128 + j.val))) := by
  obtain ⟨e00, e01, -⟩ := idx_facts0 t
  have hr : t.val % 8 < 8 := Nat.mod_lt _ (by decide)
  unfold iblk0
  rw [View.read_apply]
  show V c main_arg0 _ = V c main_arg0 _
  congr 1
  funext a
  apply Fin.ext
  match a with
  | ⟨0, _⟩ => show win0_0.index t (0 : Fin 2) * 128 + 1 * b.val = b.val; rw [e00]; omega
  | ⟨1, _⟩ => show win0_0.index t (1 : Fin 2) * 128 + 1 * j.val = (t.val % 8 * 128 + j.val) % 1024; rw [e01]; omega

/-- The weights' block at point `t`: the output columns of block `t / 8`, the input columns of block `t % 8`. -/
theorem blkW0_at (c : Dev nD) (t : Fin cfg0.N) (o j : Fin 128) :
    (iblk0 V c 1 t : Vec Ideal S128x128 .f32) (ix2 o j)
      = arrW0 V c (ix2 (ocol0 (t.val / 8 * 128 + o.val)) (icol0 (t.val % 8 * 128 + j.val))) := by
  obtain ⟨-, -, e10, e11, -⟩ := idx_facts0 t
  have hN : t.val < NOB * 8 := lt_of_lt_of_eq t.isLt (show cfg0.N = NOB * 8 from N_0)
  unfold iblk0
  rw [View.read_apply]
  show V c main_arg1 _ = V c main_arg1 _
  congr 1
  funext a
  apply Fin.ext
  match a with
  | ⟨0, _⟩ => show win0_1.index t (0 : Fin 2) * 128 + 1 * o.val = (t.val / 8 * 128 + o.val) % OUTD; rw [e10]; omega
  | ⟨1, _⟩ => show win0_1.index t (1 : Fin 2) * 128 + 1 * j.val = (t.val % 8 * 128 + j.val) % 1024; rw [e11]; omega

/-- The bias block at point `t`: the output columns of block `t / 8`. -/
theorem blkB0_at (c : Dev nD) (t : Fin cfg0.N) (o : Fin 128) :
    (iblk0 V c 2 t : Vec Ideal S1x128 .f32) (ix2 0 o) = arrB0 V c (ix2 0 (ocol0 (t.val / 8 * 128 + o.val))) := by
  obtain ⟨-, -, -, -, e20, e21, -⟩ := idx_facts0 t
  have hN : t.val < NOB * 8 := lt_of_lt_of_eq t.isLt (show cfg0.N = NOB * 8 from N_0)
  unfold iblk0
  rw [View.read_apply]
  show V c main_v2 _ = V c main_v2 _
  congr 1
  funext a
  apply Fin.ext
  match a with
  | ⟨0, _⟩ => show win0_2.index t (0 : Fin 2) * 1 + 1 * 0 = 0; rw [e20]
  | ⟨1, _⟩ => show win0_2.index t (1 : Fin 2) * 128 + 1 * o.val = (t.val / 8 * 128 + o.val) % OUTD; rw [e21]; omega

/-- The logits' block at point `t`: all four atoms, the output columns of block `t / 8`, the input columns of block `t % 8`. -/
theorem blkL0_at (c : Dev nD) (t : Fin cfg0.N) (k : Fin 4) (o j : Fin 128) :
    (iblk0 V c 3 t : Vec Ideal S4x128x128 .f32) (ix3 k o j)
      = arrL0 V c (ix3 k (ocol0 (t.val / 8 * 128 + o.val)) (icol0 (t.val % 8 * 128 + j.val))) := by
  obtain ⟨-, -, -, -, -, -, e30, e31, e32, -⟩ := idx_facts0 t
  have hN : t.val < NOB * 8 := lt_of_lt_of_eq t.isLt (show cfg0.N = NOB * 8 from N_0)
  unfold iblk0
  rw [View.read_apply]
  show V c main_v0 _ = V c main_v0 _
  congr 1
  funext a
  apply Fin.ext
  match a with
  | ⟨0, _⟩ => show win0_3.index t (0 : Fin 3) * 4 + 1 * k.val = k.val; rw [e30]; omega
  | ⟨1, _⟩ => show win0_3.index t (1 : Fin 3) * 128 + 1 * o.val = (t.val / 8 * 128 + o.val) % OUTD; rw [e31]; omega
  | ⟨2, _⟩ => show win0_3.index t (2 : Fin 3) * 128 + 1 * j.val = (t.val % 8 * 128 + j.val) % 1024; rw [e32]; omega

/-- One reduction step at point `t`, over any accumulator. -/
theorem stepAt0 (c : Dev nD) (t : Fin cfg0.N) (acc : Vec Ideal S128x128 .f32) (b oo : Fin 128) :
    k0_pay4 (F := Ideal) (iblk0 V c 1 t) (iblk0 V c 3 t) (iblk0 V c 0 t) acc (ix2 b oo)
      = acc (ix2 b oo) + ∑ j : Fin 128, term0 (arrH0 V c) (arrW0 V c) (arrL0 V c) b (ocol0 (t.val / 8 * 128 + oo.val)) (icol0 (t.val % 8 * 128 + j.val)) :=
  step0_at (arrH0 V c) (arrW0 V c) (arrL0 V c) (t.val / 8) (t.val % 8) (iblk0 V c 1 t) (iblk0 V c 3 t) (iblk0 V c 0 t) acc
    (blkH0_at V c t) (blkW0_at V c t) (blkL0_at V c t) b oo

/-! ## The accumulator, point by point -/

/-- After point `n` the accumulator holds, for the output columns of block `n / 8`, the terms of the input columns of
    the blocks `0 … n % 8`: a reset step starts from zero, every other step adds to what the step before left. -/
theorem acc0_at (c : Dev nD) : ∀ (n : ℕ) (hn : n < cfg0.N) (b oo : Fin 128),
    ((outsAt0 V c n hn).2 : Vec Ideal S128x128 .f32) (ix2 b oo)
      = psum0 (arrH0 V c) (arrW0 V c) (arrL0 V c) b (n / 8) oo (n % 8) := by
  intro n
  induction n using Nat.strong_induction_on with
  | _ n ih =>
    intro hn b oo
    by_cases h0 : n % 8 = 0
    · have h1 : ¬n % 8 = 7 := by omega
      rw [outsAt0_A V c ⟨n, hn⟩ h0 h1]
      dsimp only
      rw [sout0_A_0_eq c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) _ _ (iblk0 V c 0 ⟨n, hn⟩) (iblk0 V c 1 ⟨n, hn⟩) (iblk0 V c 2 ⟨n, hn⟩) (iblk0 V c 3 ⟨n, hn⟩), pay1_0,
        stepAt0 V c ⟨n, hn⟩ _ b oo, pay3_0_at, zero_add]
      dsimp only
      rw [h0, psum0_zero]
    · have hpos : n - 1 < n := by omega
      have e8 : (n - 1) / 8 = n / 8 := by omega
      have e7 : (n - 1) % 8 + 1 = n % 8 := by omega
      by_cases h1 : n % 8 = 7
      · rw [outsAt0_C V c ⟨n, hn⟩ h0 h1]
        dsimp only
        rw [sout0_C_0_eq c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) _ _ (iblk0 V c 0 ⟨n, hn⟩) (iblk0 V c 1 ⟨n, hn⟩) (iblk0 V c 2 ⟨n, hn⟩) (iblk0 V c 3 ⟨n, hn⟩) _, pay1_0,
          stepAt0 V c ⟨n, hn⟩ _ b oo]
        dsimp only
        rw [ih (n - 1) hpos _ b oo, e8, ← e7, psum0_succ]
      · rw [outsAt0_B V c ⟨n, hn⟩ h0 h1]
        dsimp only
        rw [sout0_B_0_eq c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) _ _ (iblk0 V c 0 ⟨n, hn⟩) (iblk0 V c 1 ⟨n, hn⟩) (iblk0 V c 2 ⟨n, hn⟩) (iblk0 V c 3 ⟨n, hn⟩) _, pay1_0,
          stepAt0 V c ⟨n, hn⟩ _ b oo]
        dsimp only
        rw [ih (n - 1) hpos _ b oo, e8, ← e7, psum0_succ]

/-! ## The output block at a last step, and the array -/

/-- The layer of the specification over the region's arrays, as contents of the output array. -/
def G0 (c : Dev nD) : (SOUT).Idx → EReal := fun i =>
  Cert.Net.layer act0 (fun b i => arrH0 V c (ix2 b i)) (fun o i => arrW0 V c (ix2 o i)) (fun o => arrB0 V c (ix2 0 o))
    (fun o i k => arrL0 V c (ix3 k o i)) (i 0) (i 1)

/-- At a last reduction step the output block holds the layer at the output columns of its block: the accumulator
    after the eighth block of input columns — the whole sum — plus the bias. -/
theorem out0_at (c : Dev nD) (t : Fin cfg0.N) (h1 : t.val % 8 = 7) (y : S128x128.Idx) (k : (SOUT).Idx)
    (hk0 : (k 0).val = (y 0).val) (hk1 : (k 1).val = t.val / 8 * 128 + (y 1).val) :
    ((outsAt0 V c t.val t.isLt).1 : Vec Ideal S128x128 .f32) y = G0 V c k := by
  obtain ⟨b, oo, rfl⟩ : ∃ (b oo : Fin 128), y = ix2 b oo := ⟨y 0, y 1, eq_ix2 y⟩
  obtain ⟨p, n, rfl⟩ : ∃ (p : Fin 128) (n : Fin OUTD), k = ix2 p n := ⟨k 0, k 1, eq_ix2 k⟩
  obtain rfl : p = b := Fin.ext hk0
  have hn : ocol0 (t.val / 8 * 128 + oo.val) = n := (congrArg ocol0 hk1.symm).trans (ocol0_val n)
  have h0 : ¬t.val % 8 = 0 := by omega
  have e8 : (t.val - 1) / 8 = t.val / 8 := by omega
  have e7 : (t.val - 1) % 8 = 6 := by omega
  rw [outsAt0_C V c t h0 h1]
  dsimp only
  rw [out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk0 V c 0 t) (iblk0 V c 1 t) (iblk0 V c 2 t) (iblk0 V c 3 t) _, pay2_0_at, pay1_0,
    stepAt0 V c t _ p oo, acc0_at V c (t.val - 1) _ p oo, blkB0_at V c t oo, e8, e7, h1]
  have hsum : psum0 (arrH0 V c) (arrW0 V c) (arrL0 V c) p (t.val / 8) oo 6
        + ∑ j : Fin 128, term0 (arrH0 V c) (arrW0 V c) (arrL0 V c) p (ocol0 (t.val / 8 * 128 + oo.val)) (icol0 (7 * 128 + j.val))
      = ∑ i : Fin 1024, term0 (arrH0 V c) (arrW0 V c) (arrL0 V c) p (ocol0 (t.val / 8 * 128 + oo.val)) i :=
    (psum0_succ (arrH0 V c) (arrW0 V c) (arrL0 V c) p (t.val / 8) oo 6).symm.trans
      (psum0_last (arrH0 V c) (arrW0 V c) (arrL0 V c) p (t.val / 8) oo)
  rw [hsum, hn]
  rfl

/-- What a last step writes back is its block of the layer. -/
theorem flushed0_eq (c : Dev nD) (t : Fin cfg0.N) (hf : (cfg0.win 4).flush t = true) :
    (dat0 (F := Ideal) V c).flushed 4 t = ((cfg0.win 4).blk t).view.read (Elt Ideal) (G0 V c) := by
  have h1 : t.val % 8 = 7 := (flush0_4 t).mp hf
  obtain ⟨-, -, -, -, -, -, -, -, -, e40, e41⟩ := idx_facts0 t
  show (cfg0.win 4).cut (grid0.coords t) ((dat0 (F := Ideal) V c).after 4 t) = _
  rw [after0_4]
  funext y
  rw [View.read_apply]
  show ((outsAt0 V c t.val t.isLt).1 : Vec Ideal S128x128 .f32) y = G0 V c (((cfg0.win 4).blk t).view.emb y)
  refine out0_at V c t h1 y _ ?_ ?_
  · show win0_4.index t (0 : Fin 2) * 128 + 1 * (y 0).val = (y 0).val
    rw [e40]; omega
  · show win0_4.index t (1 : Fin 2) * 128 + 1 * (y 1).val = t.val / 8 * 128 + (y 1).val
    rw [e41]; omega

/-- The blocks of the last steps cover the output array: column `n` lies in the block written at point `n / 128 * 8 + 7`. -/
theorem cover0 (c : Dev nD) (i : ((cfg0.win 4).arr.view.loc (c.tc : Thread nD τ)).2.ty.Idx) :
    ∃ t : Fin cfg0.N, (cfg0.win 4).flush t = true ∧ i ∈ ((cfg0.win 4).blk t).view.set := by
  have hi0 : (i 0 : ℕ) < 128 := (i 0).isLt
  have hi1 : (i 1 : ℕ) < OUTD := (i 1).isLt
  have hN : cfg0.N = NOB * 8 := N_0
  obtain ⟨t, ht⟩ : ∃ t : Fin cfg0.N, t.val = (i 1 : ℕ) / 128 * 8 + 7 := ⟨⟨(i 1 : ℕ) / 128 * 8 + 7, by rw [hN]; omega⟩, rfl⟩
  obtain ⟨-, -, -, -, -, -, -, -, -, e40, e41⟩ := idx_facts0 t
  refine ⟨t, (flush0_4 t).mpr (by omega), ?_⟩
  show i ∈ ((View.whole main_v3).slice (win0_4.rect t)).set
  rw [View.set_slice_whole, Rect.mem_set_unit]
  intro a
  match a with
  | ⟨0, _⟩ =>
    show win0_4.index t (0 : Fin 2) * 128 ≤ (i 0 : ℕ) ∧ (i 0 : ℕ) < win0_4.index t (0 : Fin 2) * 128 + 128
    rw [e40]; omega
  | ⟨1, _⟩ =>
    show win0_4.index t (1 : Fin 2) * 128 ≤ (i 1 : ℕ) ∧ (i 1 : ℕ) < win0_4.index t (1 : Fin 2) * 128 + 128
    rw [e41]; omega

/-- The output array after the region. -/
theorem value0 (c : Dev nD) (p : Fin 128) (n : Fin 1024) :
    ((dat0 (F := Ideal) V c).arrAt 4 cfg0.N : S128x1024.Idx → EReal) (ix2 p n)
      = Cert.Net.layer act0 (fun b i => (V c main_arg0 : S128x1024.Idx → EReal) (ix2 b i)) (fun o i => (V c main_arg1 : S1024x1024.Idx → EReal) (ix2 o i))
          (fun o => (V c main_v2 : S1x1024.Idx → EReal) (ix2 0 o)) (fun o i k => (V c main_v0 : S4x1024x1024.Idx → EReal) (ix3 k o i)) p n := by
  have e : (dat0 (F := Ideal) V c).arrAt 4 cfg0.N = G0 V c :=
    (dat0 (F := Ideal) V c).arrAt_eq_of_cover 4 (G0 V c) (flushed0_eq V c) (cover0 c)
  exact congrFun e (ix2 p n)

end Cert.KernelIdeal.Fr

end
-- ==== Proof.KI.R1Pay.lean ====
/-
  The second layer's body, its arithmetic read at an index on the extended reals. One reduction step adds to the
  accumulator, at row b and output column o of the block, the sum over the block's 128 input columns j of
  h b j * mix (logits · o j) (w o j), with no activation; the reset value is zero; the output block is the accumulator
  plus the bias row.
-/
import proofs.«136982_j44813688767075_1_alg».proof.Proof.Gen.KernelIdeal.Skeleton
import proofs.«136982_j44813688767075_1_alg».proof.Proof.Net.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The second layer's activation: none. -/
abbrev act1 : EReal → EReal := id

/-! ## Exponential, hyperbolic tangent and sine of a block at an index -/

/-- The exponential of a block, at an index, is the exponential of the entry. -/
theorem exp_at_p1 {s : Shape} (a : FVec Ideal s .f32) (i : s.Idx) : exp a i = Ideal.exp (a i) := rfl
/-- The hyperbolic tangent of a block, at an index, is that of the entry. -/
theorem tanh_at_p1 {s : Shape} (a : FVec Ideal s .f32) (i : s.Idx) : tanh a i = Ideal.tanh (a i) := rfl
/-- The sine of a block, at an index, is that of the entry. -/
theorem sin_at_p1 {s : Shape} (a : FVec Ideal s .f32) (i : s.Idx) : sin a i = Ideal.sin (a i) := rfl

/-! ## The literal -∞ -/

/-- The word 0xFF800000 is -∞. -/
theorem negInf_eq_p1 : (FloatOps.ofBits .f32 0xFF800000#32 : Ideal .f32) = (⊥ : EReal) := by
  show Ideal.ofBits .f32 0xFF800000#32 = ⊥
  simp [Ideal.ofBits, Ideal.ieee]

/-! ## Broadcasts, the added unit axis and the atoms' slices, at explicit coordinates -/

/-- One 128 x 128 sheet copied over the four atoms reads the sheet. -/
theorem bc_1ab_4ab_p1 (x : FVec Ideal S1x128x128 .f32) (hb : S1x128x128.Broadcasts S4x128x128) (k : Fin 4) (o j : Fin 128) :
    broadcastTo S4x128x128 x hb (ix3 k o j) = x (ix3 (0 : Fin 1) o j) :=
  broadcastTo_apply x hb (ix3 k o j) (ix3 (0 : Fin 1) o j) fun ax =>
    match ax with
    | ⟨0, _⟩ => rfl
    | ⟨1, _⟩ => rfl
    | ⟨2, _⟩ => rfl

/-- One 128 x 128 sheet copied over the 128 rows reads the sheet. -/
theorem bc_1ab_cab_p1 (x : FVec Ideal S1x128x128 .f32) (hb : S1x128x128.Broadcasts S128x128x128) (b o j : Fin 128) :
    broadcastTo S128x128x128 x hb (ix3 b o j) = x (ix3 (0 : Fin 1) o j) :=
  broadcastTo_apply x hb (ix3 b o j) (ix3 (0 : Fin 1) o j) fun ax =>
    match ax with
    | ⟨0, _⟩ => rfl
    | ⟨1, _⟩ => rfl
    | ⟨2, _⟩ => rfl

/-- A 128 x 1 x 128 block copied over the 128 output columns reads its one middle entry. -/
theorem bc_a1b_acb_p1 (x : FVec Ideal S128x1x128 .f32) (hb : S128x1x128.Broadcasts S128x128x128) (b o j : Fin 128) :
    broadcastTo S128x128x128 x hb (ix3 b o j) = x (ix3 b (0 : Fin 1) j) :=
  broadcastTo_apply x hb (ix3 b o j) (ix3 b (0 : Fin 1) j) fun ax =>
    match ax with
    | ⟨0, _⟩ => rfl
    | ⟨1, _⟩ => rfl
    | ⟨2, _⟩ => rfl

/-- A 128 x 128 block with a unit axis put in the middle reads the block. -/
theorem sc_ab_a1b_p1 (x : FVec Ideal S128x128 .f32) (hc : S128x128.ShapeCasts S128x1x128) (b : Fin 128) (u : Fin 1) (j : Fin 128) :
    shapeCast S128x1x128 x hc (ix3 b u j) = x (ix2 b j) :=
  shapeCast_apply x hc _ _ (by
    have hu : u.val = 0 := by omega
    rw [Shape.rowMajor_val_three, Shape.rowMajor_val_two]
    show b.val * 128 + j.val = (b.val * 1 + u.val) * 128 + j.val
    rw [hu]; omega)

/-- The sheet of atom `c` cut out of the four reads atom `c`. -/
theorem slice_atom_p1 (c : Nat) (x : FVec Ideal S4x128x128 .f32) (hs : S4x128x128.Slices ![c, 0, 0] S1x128x128)
    (k : Fin 4) (hk : k.val = c) (u : Fin 1) (o j : Fin 128) :
    extractStridedSlice S1x128x128 ![c, 0, 0] x hs (ix3 u o j) = x (ix3 k o j) :=
  extractStridedSlice_apply _ x hs (ix3 u o j) (ix3 k o j) fun ax =>
    match ax with
    | ⟨0, _⟩ => by
        have hu : u.val = 0 := by omega
        show k.val = c + u.val
        omega
    | ⟨1, _⟩ => by show o.val = 0 + o.val; omega
    | ⟨2, _⟩ => by show j.val = 0 + j.val; omega

/-- Atom 0's sheet. -/
theorem slice_atom0_p1 (x : FVec Ideal S4x128x128 .f32) (hs : S4x128x128.Slices ![0, 0, 0] S1x128x128) (u : Fin 1) (o j : Fin 128) :
    extractStridedSlice S1x128x128 ![0, 0, 0] x hs (ix3 u o j) = x (ix3 (0 : Fin 4) o j) :=
  slice_atom_p1 0 x hs 0 rfl u o j

/-- Atom 2's sheet. -/
theorem slice_atom2_p1 (x : FVec Ideal S4x128x128 .f32) (hs : S4x128x128.Slices ![2, 0, 0] S1x128x128) (u : Fin 1) (o j : Fin 128) :
    extractStridedSlice S1x128x128 ![2, 0, 0] x hs (ix3 u o j) = x (ix3 (2 : Fin 4) o j) :=
  slice_atom_p1 2 x hs 2 rfl u o j

/-- Atom 3's sheet. -/
theorem slice_atom3_p1 (x : FVec Ideal S4x128x128 .f32) (hs : S4x128x128.Slices ![3, 0, 0] S1x128x128) (u : Fin 1) (o j : Fin 128) :
    extractStridedSlice S1x128x128 ![3, 0, 0] x hs (ix3 u o j) = x (ix3 (3 : Fin 4) o j) :=
  slice_atom_p1 3 x hs 3 rfl u o j

/-! ## The index a one-axis reduction reads, by coordinates -/

/-- Over the atoms' axis: atom `k` put in front of `(o, j)`. -/
theorem lift0_eq_p1 (hr : S4x128x128.Reduces [0] S128x128) (o j : Fin 128) (k : Fin 4) :
    hr.lift (ix2 o j) k = ix3 k o j := by
  funext c
  match c with
  | ⟨0, _⟩ => exact Fin.ext rfl
  | ⟨1, _⟩ => exact Fin.ext rfl
  | ⟨2, _⟩ => exact Fin.ext rfl

/-- Over the input columns' axis: column `j` put behind `(b, o)`. -/
theorem lift2_eq_p1 (hr : S128x128x128.Reduces [2] S128x128) (b o : Fin 128) (j : Fin 128) :
    hr.lift (ix2 b o) j = ix3 b o j := by
  funext c
  match c with
  | ⟨0, _⟩ => exact Fin.ext rfl
  | ⟨1, _⟩ => exact Fin.ext rfl
  | ⟨2, _⟩ => exact Fin.ext rfl

/-! ## The three reductions at explicit coordinates -/

/-- The maximum over the four atoms from -∞, at `(o, j)`: the fold of `max` over the atoms' entries. -/
theorem max_red0_p1 (x : FVec Ideal S4x128x128 .f32) (o j : Fin 128) :
    multiReduction .maximumf [0] S128x128 x 0xFF800000#32 reduces_S4x128x128_S128x128 (.inl rfl) rfl (ix2 o j)
      = (Finset.univ : Finset (Fin 4)).fold max ⊥ (fun k => x (ix3 k o j)) := by
  refine (Ideal.multiReduction_maximumf_single x 0xFF800000#32 reduces_S4x128x128_S128x128 (.inl rfl) rfl (ix2 o j)).trans ?_
  rw [negInf_eq_p1]
  have e : (x ∘ reduces_S4x128x128_S128x128.lift (ix2 o j)) = fun k : Fin 4 => x (ix3 k o j) :=
    funext fun k => congrArg x (lift0_eq_p1 reduces_S4x128x128_S128x128 o j k)
  exact congrArg (fun f => (Finset.univ : Finset (Fin 4)).fold max ⊥ f) e

/-- The sum over the four atoms, at `(o, j)`. -/
theorem add_red0_p1 (x : FVec Ideal S4x128x128 .f32) (o j : Fin 128) :
    multiReduction .add [0] S128x128 x 0x00000000#32 reduces_S4x128x128_S128x128 (.inl rfl) rfl (ix2 o j)
      = ∑ k : Fin 4, x (ix3 k o j) := by
  refine (Ideal.multiReduction_add_single x _ reduces_S4x128x128_S128x128 (.inl rfl) rfl (ix2 o j)).trans ?_
  exact Finset.sum_congr rfl fun k _ => congrArg x (lift0_eq_p1 reduces_S4x128x128_S128x128 o j k)

/-- The sum over the 128 input columns, at `(b, o)`. -/
theorem add_red2_p1 (x : FVec Ideal S128x128x128 .f32) (b o : Fin 128) :
    multiReduction .add [2] S128x128 x 0x00000000#32 reduces_S128x128x128_S128x128 (.inl rfl) rfl (ix2 b o)
      = ∑ j : Fin 128, x (ix3 b o j) := by
  refine (Ideal.multiReduction_add_single x _ reduces_S128x128x128_S128x128 (.inl rfl) rfl (ix2 b o)).trans ?_
  exact Finset.sum_congr rfl fun j _ => congrArg x (lift2_eq_p1 reduces_S128x128x128_S128x128 b o j)

/-! ## The four payloads -/

/-- One reduction step at an index of the block. -/
theorem pay4_1_at (w : Vec Ideal S128x128 .f32) (lg : Vec Ideal S4x128x128 .f32) (h acc : Vec Ideal S128x128 .f32) (b o : Fin 128) :
    k1_pay4 (F := Ideal) w lg h acc (ix2 b o)
      = acc (ix2 b o) + ∑ j : Fin 128, act1 (h (ix2 b j) * Cert.Net.mix (fun k => lg (ix3 k o j)) (w (ix2 o j))) := by
  unfold k1_pay4
  simp only [addf_apply]
  rw [add_red2_p1]
  simp only [tanh_at_p1, mulf_apply, addf_apply, bc_a1b_acb_p1, bc_1ab_cab_p1, sc_ab_a1b_p1, shapeCast_ab_1ab_apply,
    shapeCast_1ab_ab_apply, slice_atom0_p1, slice_atom2_p1, slice_atom3_p1, divf_apply, exp_at_p1, subf_apply, bc_1ab_4ab_p1,
    maximumf_apply, broadcast_apply, sin_at_p1, shapeCast_self, negInf_eq_p1]
  refine congrArg (fun t => acc (ix2 b o) + t) (Finset.sum_congr rfl fun j _ => ?_)
  rw [max_red0_p1, add_red0_p1]
  simp only [exp_at_p1, subf_apply, bc_1ab_4ab_p1, shapeCast_ab_1ab_apply, maximumf_apply, broadcast_apply]
  rw [max_red0_p1]
  rfl

/-- Storing the accumulator changes nothing of it. -/
theorem pay1_1 (v : FVec Ideal S128x128 .f32) : k1_pay1 (F := Ideal) v = v := by
  unfold k1_pay1
  exact shapeCast_self v _

/-- The reset value. -/
theorem pay3_1_at (b o : Fin 128) : k1_pay3 (F := Ideal) (ix2 b o) = 0 := by
  unfold k1_pay3
  simp only [shapeCast_self, broadcast_apply]
  exact Ideal.ofBits_zero_f32

/-- The output block: the accumulator plus the bias row. -/
theorem pay2_1_at (acc : Vec Ideal S128x128 .f32) (bias : Vec Ideal S1x128 .f32) (b o : Fin 128) :
    k1_pay2 (F := Ideal) acc bias (ix2 b o) = acc (ix2 b o) + bias (ix2 0 o) := by
  unfold k1_pay2
  simp only [addf_apply, shapeCast_self, broadcastTo_1b_ab_apply]

end Cert.KernelIdeal.Fr

end
-- ==== Proof.KI.KValue.lean ====
/-
  The idealized kernel's result is the two-layer network of the specification.

  The second region's output array is the second layer of what it finds: its activations are the first region's output
  array, which the one host operation between the regions leaves alone, and that is the first layer of what the first
  region finds. What the regions find besides the arguments themselves are the host operations' results: each logits
  array with its atom axis moved in front (a transpose), each bias vector as a one-row matrix (a reshape). Read at an index
  these are the arguments' entries, and the composition is the network.
-/
import proofs.«136982_j44813688767075_1_alg».proof.Proof.KI.Run
import proofs.«136982_j44813688767075_1_alg».proof.Proof.KI.R0Value
import proofs.«136982_j44813688767075_1_alg».proof.Proof.KI.R1Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## What the first region finds -/

theorem V1_arg0 (c : Dev nD) : V1 m ρ c main_arg0 = m ((c : Thread nD τ).loc main_arg0) :=
  StableHlo.after_of_writes_sub hostOps0 _ hostOps0_writes (by decide)
theorem V1_arg1 (c : Dev nD) : V1 m ρ c main_arg1 = m ((c : Thread nD τ).loc main_arg1) :=
  StableHlo.after_of_writes_sub hostOps0 _ hostOps0_writes (by decide)

/-- The first logits array with the atom axis in front. -/
theorem V1_v0 (c : Dev nD) : (V1 m ρ c main_v0 : S4x1024x1024.Idx → EReal)
    = transpose S4x1024x1024 [2, 0, 1] (m ((c : Thread nD τ).loc main_arg3) : S1024x1024x4.Idx → EReal) transposes_S1024x1024x4_S4x1024x1024_2_0_1 := by
  dsimp only [V1, W1, W0, hostOps0]; after_results
theorem V1_v0_at (c : Dev nD) (k : Fin 4) (o i : Fin 1024) :
    (V1 m ρ c main_v0 : S4x1024x1024.Idx → EReal) (ix3 k o i) = (m ((c : Thread nD τ).loc main_arg3) : S1024x1024x4.Idx → EReal) (ix3 o i k) := by
  rw [V1_v0]
  exact transpose_apply _ _ _ (ix3 k o i) (ix3 o i k) (fun b => by match b with | ⟨0, _⟩ => rfl | ⟨1, _⟩ => rfl | ⟨2, _⟩ => rfl)

/-- The first bias vector as a one-row matrix. -/
theorem V1_v2 (c : Dev nD) : (V1 m ρ c main_v2 : S1x1024.Idx → EReal)
    = shapeCast S1x1024 (m ((c : Thread nD τ).loc main_arg2) : S1024.Idx → EReal) shapeCasts_S1024_S1x1024 := by
  dsimp only [V1, W1, W0, hostOps0]; after_results; rfl
theorem V1_v2_at (c : Dev nD) (o : Fin 1024) :
    (V1 m ρ c main_v2 : S1x1024.Idx → EReal) (ix2 0 o) = (m ((c : Thread nD τ).loc main_arg2) : S1024.Idx → EReal) (ix1 o) := by
  rw [V1_v2]
  exact shapeCast_apply _ _ (ix2 0 o) (ix1 o) (by rw [Shape.rowMajor_val_two, Shape.rowMajor_val_one]; show o.val = 0 * 1024 + o.val; omega)

/-! ## What the second region finds -/

theorem V3_arg4 (c : Dev nD) : V3 m ρ c main_arg4 = m ((c : Thread nD τ).loc main_arg4) :=
  calc V3 m ρ c main_arg4
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- Its activations are the first region's output array. -/
theorem V3_v3 (c : Dev nD) : V3 m ρ c main_v3 = (dat0 (V1 m ρ) c).arrAt 4 cfg0.N :=
  calc V3 m ρ c main_v3
    _ = W2 m ρ c (Proc.devRef .tc main_v3) := StableHlo.after_of_writes_sub hostOps1 _ hostOps1_writes (by decide)
    _ = (dat0 (V1 m ρ) c).arrAt 4 cfg0.N := W2_arr m ρ c 4

/-- The second logits array with the atom axis in front. -/
theorem W1_v1 (c : Dev nD) : (W1 m ρ c (Proc.devRef .tc main_v1) : S4x512x1024.Idx → EReal)
    = transpose S4x512x1024 [2, 0, 1] (m ((c : Thread nD τ).loc main_arg6) : S512x1024x4.Idx → EReal) transposes_S512x1024x4_S4x512x1024_2_0_1 := by
  dsimp only [W1, W0, hostOps0]; after_results
theorem V3_v1_at (c : Dev nD) (k : Fin 4) (o : Fin 512) (i : Fin 1024) :
    (V3 m ρ c main_v1 : S4x512x1024.Idx → EReal) (ix3 k o i) = (m ((c : Thread nD τ).loc main_arg6) : S512x1024x4.Idx → EReal) (ix3 o i k) := by
  have e : V3 m ρ c main_v1 = W1 m ρ c (Proc.devRef .tc main_v1) :=
    calc V3 m ρ c main_v1
      _ = W2 m ρ c (Proc.devRef .tc main_v1) := StableHlo.after_of_writes_sub hostOps1 _ hostOps1_writes (by decide)
      _ = W1 m ρ c (Proc.devRef .tc main_v1) := W2_of_ne m ρ c main_v1 (by decide)
  rw [e, W1_v1]
  exact transpose_apply _ _ _ (ix3 k o i) (ix3 o i k) (fun b => by match b with | ⟨0, _⟩ => rfl | ⟨1, _⟩ => rfl | ⟨2, _⟩ => rfl)

/-- The second bias vector as a one-row matrix. -/
theorem V3_v4 (c : Dev nD) : (V3 m ρ c main_v4 : S1x512.Idx → EReal)
    = shapeCast S1x512 (W2 m ρ c (Proc.devRef .tc main_arg5) : S512.Idx → EReal) shapeCasts_S512_S1x512 := by
  dsimp only [V3, W3, hostOps1]; after_results; rfl
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem V3_v4_at (c : Dev nD) (o : Fin 512) :
    (V3 m ρ c main_v4 : S1x512.Idx → EReal) (ix2 0 o) = (m ((c : Thread nD τ).loc main_arg5) : S512.Idx → EReal) (ix1 o) := by
  rw [V3_v4, W2_arg5]
  exact shapeCast_apply _ _ (ix2 0 o) (ix1 o) (by rw [Shape.rowMajor_val_two, Shape.rowMajor_val_one]; show o.val = 0 * 512 + o.val; omega)

/-! ## The result -/

/-- The result array after the program, at row p and column q, is the network of the arguments. -/
theorem kernel_is_net (c : Dev nD) (p : Fin 128) (q : Fin 512) :
    (W4 m ρ c (Proc.devRef .tc main_v5) : S128x512.Idx → EReal) (ix2 p q)
      = Cert.Net.net (fun b i => (m ((c : Thread nD τ).loc main_arg0) : S128x1024.Idx → EReal) (ix2 b i))
          (fun o i => (m ((c : Thread nD τ).loc main_arg1) : S1024x1024.Idx → EReal) (ix2 o i))
          (fun o => (m ((c : Thread nD τ).loc main_arg2) : S1024.Idx → EReal) (ix1 o))
          (fun o i k => (m ((c : Thread nD τ).loc main_arg3) : S1024x1024x4.Idx → EReal) (ix3 o i k))
          (fun o i => (m ((c : Thread nD τ).loc main_arg4) : S512x1024.Idx → EReal) (ix2 o i))
          (fun o => (m ((c : Thread nD τ).loc main_arg5) : S512.Idx → EReal) (ix1 o))
          (fun o i k => (m ((c : Thread nD τ).loc main_arg6) : S512x1024x4.Idx → EReal) (ix3 o i k)) p q := by
  have h5 : W4 m ρ c (Proc.devRef .tc main_v5) = (dat1 (V3 m ρ) c).arrAt 4 cfg1.N := W4_arr m ρ c 4
  rw [h5, value1 (V3 m ρ) c p q]
  unfold Cert.Net.net
  have eh : (fun (b : Fin 128) (i : Fin 1024) => (V3 m ρ c main_v3 : S128x1024.Idx → EReal) (ix2 b i))
      = Cert.Net.layer Ideal.tanh (fun b i => (m ((c : Thread nD τ).loc main_arg0) : S128x1024.Idx → EReal) (ix2 b i))
          (fun o i => (m ((c : Thread nD τ).loc main_arg1) : S1024x1024.Idx → EReal) (ix2 o i))
          (fun o => (m ((c : Thread nD τ).loc main_arg2) : S1024.Idx → EReal) (ix1 o))
          (fun o i k => (m ((c : Thread nD τ).loc main_arg3) : S1024x1024x4.Idx → EReal) (ix3 o i k)) := by
    funext b i
    rw [V3_v3, value0 (V1 m ρ) c b i, V1_arg0, V1_arg1]
    have e3 : (fun (o : Fin 1024) => (V1 m ρ c main_v2 : S1x1024.Idx → EReal) (ix2 0 o))
        = fun o => (m ((c : Thread nD τ).loc main_arg2) : S1024.Idx → EReal) (ix1 o) := funext fun o => V1_v2_at m ρ c o
    have e4 : (fun (o i : Fin 1024) (k : Fin 4) => (V1 m ρ c main_v0 : S4x1024x1024.Idx → EReal) (ix3 k o i))
        = fun o i k => (m ((c : Thread nD τ).loc main_arg3) : S1024x1024x4.Idx → EReal) (ix3 o i k) :=
      funext fun o => funext fun i => funext fun k => V1_v0_at m ρ c k o i
    rw [e3, e4]
  have ew : (fun (o : Fin 512) (i : Fin 1024) => (V3 m ρ c main_arg4 : S512x1024.Idx → EReal) (ix2 o i))
      = (fun o i => (m ((c : Thread nD τ).loc main_arg4) : S512x1024.Idx → EReal) (ix2 o i)) := by rw [V3_arg4]
  have eb : (fun (o : Fin 512) => (V3 m ρ c main_v4 : S1x512.Idx → EReal) (ix2 0 o))
      = fun o => (m ((c : Thread nD τ).loc main_arg5) : S512.Idx → EReal) (ix1 o) := funext fun o => V3_v4_at m ρ c o
  have el : (fun (o : Fin 512) (i : Fin 1024) (k : Fin 4) => (V3 m ρ c main_v1 : S4x512x1024.Idx → EReal) (ix3 k o i))
      = fun o i k => (m ((c : Thread nD τ).loc main_arg6) : S512x1024x4.Idx → EReal) (ix3 o i k) :=
    funext fun o => funext fun i => funext fun k => V3_v1_at m ρ c k o i
  rw [eh, ew, eb, el]

end Cert.KernelIdeal.Fr

end
-- ==== Proof.Net.RefIs.lean ====
/-
  The reference's result, read index by index, is the two-layer network of the specification.

  Each layer is read in the order the reference computes it: the logits (divided by the temperature one), their
  largest, the softmax's numerators, denominator and weights, the four stacked atoms, the mixed weight, and last the
  sum over the input axis with the bias. Every step is an equation of extended reals that holds at `±∞` too.
-/
import proofs.«136982_j44813688767075_1_alg».proof.Proof.Gen.ReferenceIdeal.Run
import proofs.«136982_j44813688767075_1_alg».proof.Proof.Gen.ReferenceIdeal.Read
import proofs.«136982_j44813688767075_1_alg».proof.Proof.Net.Spec
import Idealize.ShloMosaic.Lib.ValueIdx
import Idealize.ShloMosaic.Lib.IdealHost
import Idealize.ShloMosaic.Lib.Pipeline.Value
import Idealize.ShloMosaic.PureOps.Reduce
import Idealize.ShloMosaic.PureOps.Ideal.Laws

noncomputable section

namespace Cert.Net.Ref

open Cert.ReferenceIdeal Cert.ReferenceIdeal.Gen Cert.ReferenceIdeal.Read Idealize.ShloMosaic Idealize.ShloMosaic.ValueIdx

/-! ## Facts both layers use -/

/-- The pattern of `-∞`. -/
theorem f32_ninf : Ideal.ofBits .f32 0xFF800000#32 = ⊥ := by simp [Ideal.ofBits, Ideal.ieee]

/-- A quotient by one is the dividend, on every extended real. -/
theorem div_one (x : EReal) : Ideal.div x 1 = x := by
  have h := Ideal.div_coe (y := 1) one_ne_zero x
  simpa using h

/-- A result index of a reduction over the last of three axes, with the coordinate `k` put back, is `(o, i, k)`. -/
theorem lift3 {O I : Nat} (h : (⟨3, ![O, I, 4]⟩ : Shape).Reduces [2] (⟨2, ![O, I]⟩ : Shape)) (o : Fin O) (i : Fin I)
    (k : Fin ((⟨3, ![O, I, 4]⟩ : Shape).size 2)) : h.lift (ix2 o i) k = ix3 o i (⟨k.val, k.isLt⟩ : Fin 4) := by
  funext c; apply Fin.ext
  fin_cases c <;> rfl

/-- Four pieces of extent one joined along the last axis, read at `(o, i, k)`: piece `k` at `(o, i, 0)`. -/
theorem concat4 {O I : Nat} (y0 y1 y2 y3 : (⟨3, ![O, I, 1]⟩ : Shape).Idx → EReal)
    (h : Shape.Concatenates [(⟨3, ![O, I, 1]⟩ : Shape), ⟨3, ![O, I, 1]⟩, ⟨3, ![O, I, 1]⟩, ⟨3, ![O, I, 1]⟩] ⟨3, ![O, I, 4]⟩ 2)
    (o : Fin O) (i : Fin I) :
    concatenate (⟨3, ![O, I, 4]⟩ : Shape) 2 [⟨⟨3, ![O, I, 1]⟩, y0⟩, ⟨⟨3, ![O, I, 1]⟩, y1⟩, ⟨⟨3, ![O, I, 1]⟩, y2⟩, ⟨⟨3, ![O, I, 1]⟩, y3⟩] h (ix3 o i (0 : Fin 4))
        = y0 (ix3 o i (0 : Fin 1))
    ∧ concatenate (⟨3, ![O, I, 4]⟩ : Shape) 2 [⟨⟨3, ![O, I, 1]⟩, y0⟩, ⟨⟨3, ![O, I, 1]⟩, y1⟩, ⟨⟨3, ![O, I, 1]⟩, y2⟩, ⟨⟨3, ![O, I, 1]⟩, y3⟩] h (ix3 o i (1 : Fin 4))
        = y1 (ix3 o i (0 : Fin 1))
    ∧ concatenate (⟨3, ![O, I, 4]⟩ : Shape) 2 [⟨⟨3, ![O, I, 1]⟩, y0⟩, ⟨⟨3, ![O, I, 1]⟩, y1⟩, ⟨⟨3, ![O, I, 1]⟩, y2⟩, ⟨⟨3, ![O, I, 1]⟩, y3⟩] h (ix3 o i (2 : Fin 4))
        = y2 (ix3 o i (0 : Fin 1))
    ∧ concatenate (⟨3, ![O, I, 4]⟩ : Shape) 2 [⟨⟨3, ![O, I, 1]⟩, y0⟩, ⟨⟨3, ![O, I, 1]⟩, y1⟩, ⟨⟨3, ![O, I, 1]⟩, y2⟩, ⟨⟨3, ![O, I, 1]⟩, y3⟩] h (ix3 o i (3 : Fin 4))
        = y3 (ix3 o i (0 : Fin 1)) := by
  have hi : ∀ (k : Fin 4) (b : Fin 3), b.cast (rfl : (3 : Nat) = 3) ≠ (2 : Fin 3) →
      ((ix3 o i (0 : Fin 1) : (⟨3, ![O, I, 1]⟩ : Shape).Idx) b).val = ((ix3 o i k : (⟨3, ![O, I, 4]⟩ : Shape).Idx) (b.cast rfl)).val := by
    intro k b hb
    fin_cases b
    · rfl
    · rfl
    · exact absurd rfl hb
  refine ⟨?_, ?_, ?_, ?_⟩
  · exact concatenate_apply_piece (t := ⟨3, ![O, I, 4]⟩) 2 ([⟨⟨3, ![O, I, 1]⟩, y0⟩, ⟨⟨3, ![O, I, 1]⟩, y1⟩, ⟨⟨3, ![O, I, 1]⟩, y2⟩, ⟨⟨3, ![O, I, 1]⟩, y3⟩] : List ((s : Shape) × (s.Idx → EReal))) h (ix3 o i 0) 0 (by simp) _ y0 rfl rfl 0 rfl (ix3 o i 0) (hi 0) rfl
  · exact concatenate_apply_piece (t := ⟨3, ![O, I, 4]⟩) 2 ([⟨⟨3, ![O, I, 1]⟩, y0⟩, ⟨⟨3, ![O, I, 1]⟩, y1⟩, ⟨⟨3, ![O, I, 1]⟩, y2⟩, ⟨⟨3, ![O, I, 1]⟩, y3⟩] : List ((s : Shape) × (s.Idx → EReal))) h (ix3 o i 1) 1 (by simp) _ y1 rfl rfl 1 rfl (ix3 o i 0) (hi 1) rfl
  · exact concatenate_apply_piece (t := ⟨3, ![O, I, 4]⟩) 2 ([⟨⟨3, ![O, I, 1]⟩, y0⟩, ⟨⟨3, ![O, I, 1]⟩, y1⟩, ⟨⟨3, ![O, I, 1]⟩, y2⟩, ⟨⟨3, ![O, I, 1]⟩, y3⟩] : List ((s : Shape) × (s.Idx → EReal))) h (ix3 o i 2) 2 (by simp) _ y2 rfl rfl 2 rfl (ix3 o i 0) (hi 2) rfl
  · exact concatenate_apply_piece (t := ⟨3, ![O, I, 4]⟩) 2 ([⟨⟨3, ![O, I, 1]⟩, y0⟩, ⟨⟨3, ![O, I, 1]⟩, y1⟩, ⟨⟨3, ![O, I, 1]⟩, y2⟩, ⟨⟨3, ![O, I, 1]⟩, y3⟩] : List ((s : Shape) × (s.Idx → EReal))) h (ix3 o i 3) 3 (by simp) _ y3 rfl rfl 3 rfl (ix3 o i 0) (hi 3) rfl

/-- A sum of four products whose second atom is zero is the mixed weight. -/
theorem mix_eq (l : Fin 4 → EReal) (w : EReal) (a : Fin 4 → EReal) (h0 : a 0 = w) (h1 : a 1 = 0) (h2 : a 2 = Ideal.tanh w)
    (h3 : a 3 = Ideal.sin w) : (0 : EReal) + ∑ k : Fin 4, Cert.Net.wt l k * a k = Cert.Net.mix l w := by
  rw [Fin.sum_univ_four, h0, h1, h2, h3, mul_zero, add_zero, zero_add]
  rfl

/-! ## Layer 0 -/

/-- Layer 0: the logits over the temperature one are the logits. -/
theorem v1_at (x3 : (⟨S1024x1024x4, .f32⟩ : BufTy).Contents (Elt Ideal)) (j : S1024x1024x4.Idx) :
    val_main_v1 (F := Ideal) x3 j = x3 j := by
  rw [val_main_v1_apply, val_main_v0_apply, val_main_cst_apply]
  simp only [Ideal.hostDivf_def, Ideal.ofBits_def, Ideal.ofBits_one_f32, div_one]

/-- Layer 0: the maximum-reduce over the four atoms, at `(o, i)`, is the fold of `max` from `-∞` over the four logits. -/
theorem v2_at (x3 : (⟨S1024x1024x4, .f32⟩ : BufTy).Contents (Elt Ideal)) (o i : Fin 1024) :
    val_main_v2 (F := Ideal) x3 (ix2 o i) = (Finset.univ : Finset (Fin 4)).fold max ⊥ (fun k => x3 (ix3 o i k)) := by
  have h : S1024x1024x4.Reduces [2] S1024x1024 := by decide
  unfold val_main_v2
  rw [Host.reduce_eq_fold_single FloatOps.maximumf _ _ reducesTo_S1024x1024x4_S1024x1024_d2 h h_S_]
  have hf : (val_main_v1 (F := Ideal) x3 ∘ h.lift (ix2 o i)) = fun k : Fin 4 => x3 (ix3 o i k) :=
    funext fun k => (v1_at x3 _).trans (congrArg x3 (lift3 h o i k))
  have hi : val_main_cst_0 (F := Ideal) (Shape.Idx.first h_S_) = ⊥ := f32_ninf
  rw [hi]
  exact congrArg (fun f => Finset.fold max ⊥ f (Finset.univ : Finset (Fin 4))) hf

/-- Layer 0: the largest logit at `(o, i)`. -/
theorem v4_at (x3 : (⟨S1024x1024x4, .f32⟩ : BufTy).Contents (Elt Ideal)) (o i : Fin 1024) :
    val_main_v4 (F := Ideal) x3 (ix2 o i) = Cert.Net.top4 (fun k => x3 (ix3 o i k)) := by
  rw [val_main_v4_apply, val_main_v3_apply, val_main_cst_1_apply, v2_at]
  simp only [Ideal.maximumf_def, Ideal.ofBits_def, f32_ninf]
  rfl

/-- Layer 0: the softmax's numerator at `(o, i, k)`. -/
theorem v8_at (x3 : (⟨S1024x1024x4, .f32⟩ : BufTy).Contents (Elt Ideal)) (o i : Fin 1024) (k : Fin 4) :
    val_main_v8 (F := Ideal) x3 (ix3 o i k) = Cert.Net.num (fun k => x3 (ix3 o i k)) k := by
  have e : idx_main_v5 (idx_main_v6 (ix3 o i k)) = ix2 o i :=
    funext fun a => Fin.ext (by match a with | ⟨0, _⟩ => rfl | ⟨1, _⟩ => rfl)
  rw [val_main_v8_apply, val_main_v7_apply, v1_at, val_main_v6_apply, val_main_v5_apply, e, v4_at]
  rfl

/-- Layer 0: the softmax's denominator at `(o, i)`, the sum of the four numerators. -/
theorem v9_at (x3 : (⟨S1024x1024x4, .f32⟩ : BufTy).Contents (Elt Ideal)) (o i : Fin 1024) :
    val_main_v9 (F := Ideal) x3 (ix2 o i) = ∑ k : Fin 4, Cert.Net.num (fun k => x3 (ix3 o i k)) k := by
  have e : ∀ k : Fin 4, idx_main_v9 (ix2 o i) k = ix3 o i k := fun k =>
    funext fun a => Fin.ext (by match a with | ⟨0, _⟩ => rfl | ⟨1, _⟩ => rfl | ⟨2, _⟩ => rfl)
  rw [val_main_v9_apply, val_main_cst_2_apply]
  simp only [e, v8_at, Ideal.ofBits_def, Ideal.ofBits_zero_f32, zero_add]

/-- Layer 0: the softmax weight of atom `k` at `(o, i)`. -/
theorem v12_at (x3 : (⟨S1024x1024x4, .f32⟩ : BufTy).Contents (Elt Ideal)) (o i : Fin 1024) (k : Fin 4) :
    val_main_v12 (F := Ideal) x3 (ix3 o i k) = Cert.Net.wt (fun k => x3 (ix3 o i k)) k := by
  have e : idx_main_v10 (idx_main_v11 (ix3 o i k)) = ix2 o i :=
    funext fun a => Fin.ext (by match a with | ⟨0, _⟩ => rfl | ⟨1, _⟩ => rfl)
  rw [val_main_v12_apply, v8_at, val_main_v11_apply, val_main_v10_apply, e, v9_at]
  rfl

/-- Layer 0: the stacked atoms at `(o, i, ·)`: the weight, zero, its hyperbolic tangent, its sine. -/
theorem v20_at (x1 : (⟨S1024x1024, .f32⟩ : BufTy).Contents (Elt Ideal)) (o i : Fin 1024) :
    val_main_v20 (F := Ideal) x1 (ix3 o i (0 : Fin 4)) = x1 (ix2 o i)
    ∧ val_main_v20 (F := Ideal) x1 (ix3 o i (1 : Fin 4)) = 0
    ∧ val_main_v20 (F := Ideal) x1 (ix3 o i (2 : Fin 4)) = Ideal.tanh (x1 (ix2 o i))
    ∧ val_main_v20 (F := Ideal) x1 (ix3 o i (3 : Fin 4)) = Ideal.sin (x1 (ix2 o i)) := by
  have e16 : idx_main_v16 (ix3 o i (0 : Fin 1)) = ix2 o i :=
    funext fun a => Fin.ext (by match a with | ⟨0, _⟩ => rfl | ⟨1, _⟩ => rfl)
  have e18 : idx_main_v18 (ix3 o i (0 : Fin 1)) = ix2 o i :=
    funext fun a => Fin.ext (by match a with | ⟨0, _⟩ => rfl | ⟨1, _⟩ => rfl)
  have e19 : idx_main_v19 (ix3 o i (0 : Fin 1)) = ix2 o i :=
    funext fun a => Fin.ext (by match a with | ⟨0, _⟩ => rfl | ⟨1, _⟩ => rfl)
  obtain ⟨c0, c1, c2, c3⟩ := concat4 (val_main_v16 (F := Ideal) x1) (val_main_v17 (F := Ideal)) (val_main_v18 (F := Ideal) x1)
    (val_main_v19 (F := Ideal) x1) concatenates_S1024x1024x1_S1024x1024x1_S1024x1024x1_S1024x1024x1_S1024x1024x4_d2 o i
  refine ⟨c0.trans ?_, c1.trans ?_, c2.trans ?_, c3.trans ?_⟩
  · rw [val_main_v16_apply, e16]
  · rw [val_main_v17_apply, val_main_v13_apply, val_main_cst_3_apply]; exact Ideal.ofBits_zero_f32
  · rw [val_main_v18_apply, val_main_v14_apply, e18]; rfl
  · rw [val_main_v19_apply, val_main_v15_apply, e19]; rfl

/-- Layer 0: the mixed weight at `(o, i)`. -/
theorem v22_at (x1 : (⟨S1024x1024, .f32⟩ : BufTy).Contents (Elt Ideal)) (x3 : (⟨S1024x1024x4, .f32⟩ : BufTy).Contents (Elt Ideal))
    (o i : Fin 1024) :
    val_main_v22 (F := Ideal) x1 x3 (ix2 o i) = Cert.Net.mix (fun k => x3 (ix3 o i k)) (x1 (ix2 o i)) := by
  have e : ∀ k : Fin 4, idx_main_v22 (ix2 o i) k = ix3 o i k := fun k =>
    funext fun a => Fin.ext (by match a with | ⟨0, _⟩ => rfl | ⟨1, _⟩ => rfl | ⟨2, _⟩ => rfl)
  obtain ⟨c0, c1, c2, c3⟩ := v20_at x1 o i
  rw [val_main_v22_apply, val_main_cst_4_apply]
  simp only [e, val_main_v21_apply, v12_at, Ideal.mulf_def, Ideal.ofBits_def, Ideal.ofBits_zero_f32]
  exact mix_eq _ _ (fun k => val_main_v20 (F := Ideal) x1 (ix3 o i k)) c0 c1 c2 c3

/-- Layer 0 of the reference, read at `(p, o)`. -/
theorem layer0_at (x0 : (⟨S128x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024x4, .f32⟩ : BufTy).Contents (Elt Ideal))
    (p : Fin 128) (o : Fin 1024) :
    val_main_v32 (F := Ideal) x0 x1 x2 x3 (ix2 p o)
      = Cert.Net.layer Ideal.tanh (fun b i => x0 (ix2 b i)) (fun o i => x1 (ix2 o i)) (fun o => x2 (ix1 o))
          (fun o i k => x3 (ix3 o i k)) p o := by
  have e29 : ∀ k : Fin 1024, idx_main_v29 (ix2 p o) k = ix3 p o k := fun k =>
    funext fun a => Fin.ext (by match a with | ⟨0, _⟩ => rfl | ⟨1, _⟩ => rfl | ⟨2, _⟩ => rfl)
  have e23 : ∀ k : Fin 1024, idx_main_v23 (idx_main_v25 (ix3 p o k)) = ix2 p k := fun k =>
    funext fun a => Fin.ext (by match a with | ⟨0, _⟩ => rfl | ⟨1, _⟩ => rfl)
  have e24 : ∀ k : Fin 1024, idx_main_v24 (idx_main_v26 (ix3 p o k)) = ix2 o k := fun k =>
    funext fun a => Fin.ext (by match a with | ⟨0, _⟩ => rfl | ⟨1, _⟩ => rfl)
  have e30 : idx_main_v30 (idx_main_v31 (ix2 p o)) = ix1 o :=
    funext fun a => Fin.ext (by match a with | ⟨0, _⟩ => rfl)
  rw [val_main_v32_apply, val_main_v29_apply, val_main_cst_5_apply, val_main_v31_apply, val_main_v30_apply, e30]
  simp only [e29, val_main_v28_apply, val_main_v27_apply, val_main_v25_apply, val_main_v23_apply, e23, val_main_v26_apply,
    val_main_v24_apply, e24, v22_at, Ideal.hostUnary_tanh_def, Ideal.mulf_def, Ideal.addf_def, Ideal.ofBits_def,
    Ideal.ofBits_zero_f32, zero_add]
  rfl

/-! ## Layer 1 -/

/-- Layer 1: the logits over the temperature one are the logits. -/
theorem v34_at (x6 : (⟨S512x1024x4, .f32⟩ : BufTy).Contents (Elt Ideal)) (j : S512x1024x4.Idx) :
    val_main_v34 (F := Ideal) x6 j = x6 j := by
  rw [val_main_v34_apply, val_main_v33_apply, val_main_cst_6_apply]
  simp only [Ideal.hostDivf_def, Ideal.ofBits_def, Ideal.ofBits_one_f32, div_one]

/-- Layer 1: the maximum-reduce over the four atoms, at `(o, i)`, is the fold of `max` from `-∞` over the four logits. -/
theorem v35_at (x6 : (⟨S512x1024x4, .f32⟩ : BufTy).Contents (Elt Ideal)) (o : Fin 512) (i : Fin 1024) :
    val_main_v35 (F := Ideal) x6 (ix2 o i) = (Finset.univ : Finset (Fin 4)).fold max ⊥ (fun k => x6 (ix3 o i k)) := by
  have h : S512x1024x4.Reduces [2] S512x1024 := by decide
  unfold val_main_v35
  rw [Host.reduce_eq_fold_single FloatOps.maximumf _ _ reducesTo_S512x1024x4_S512x1024_d2 h h_S_]
  have hf : (val_main_v34 (F := Ideal) x6 ∘ h.lift (ix2 o i)) = fun k : Fin 4 => x6 (ix3 o i k) :=
    funext fun k => (v34_at x6 _).trans (congrArg x6 (lift3 h o i k))
  have hi : val_main_cst_7 (F := Ideal) (Shape.Idx.first h_S_) = ⊥ := f32_ninf
  rw [hi]
  exact congrArg (fun f => Finset.fold max ⊥ f (Finset.univ : Finset (Fin 4))) hf

/-- Layer 1: the largest logit at `(o, i)`. -/
theorem v37_at (x6 : (⟨S512x1024x4, .f32⟩ : BufTy).Contents (Elt Ideal)) (o : Fin 512) (i : Fin 1024) :
    val_main_v37 (F := Ideal) x6 (ix2 o i) = Cert.Net.top4 (fun k => x6 (ix3 o i k)) := by
  rw [val_main_v37_apply, val_main_v36_apply, val_main_cst_8_apply, v35_at]
  simp only [Ideal.maximumf_def, Ideal.ofBits_def, f32_ninf]
  rfl

/-- Layer 1: the softmax's numerator at `(o, i, k)`. -/
theorem v41_at (x6 : (⟨S512x1024x4, .f32⟩ : BufTy).Contents (Elt Ideal)) (o : Fin 512) (i : Fin 1024) (k : Fin 4) :
    val_main_v41 (F := Ideal) x6 (ix3 o i k) = Cert.Net.num (fun k => x6 (ix3 o i k)) k := by
  have e : idx_main_v38 (idx_main_v39 (ix3 o i k)) = ix2 o i :=
    funext fun a => Fin.ext (by match a with | ⟨0, _⟩ => rfl | ⟨1, _⟩ => rfl)
  rw [val_main_v41_apply, val_main_v40_apply, v34_at, val_main_v39_apply, val_main_v38_apply, e, v37_at]
  rfl

/-- Layer 1: the softmax's denominator at `(o, i)`, the sum of the four numerators. -/
theorem v42_at (x6 : (⟨S512x1024x4, .f32⟩ : BufTy).Contents (Elt Ideal)) (o : Fin 512) (i : Fin 1024) :
    val_main_v42 (F := Ideal) x6 (ix2 o i) = ∑ k : Fin 4, Cert.Net.num (fun k => x6 (ix3 o i k)) k := by
  have e : ∀ k : Fin 4, idx_main_v42 (ix2 o i) k = ix3 o i k := fun k =>
    funext fun a => Fin.ext (by match a with | ⟨0, _⟩ => rfl | ⟨1, _⟩ => rfl | ⟨2, _⟩ => rfl)
  rw [val_main_v42_apply, val_main_cst_9_apply]
  simp only [e, v41_at, Ideal.ofBits_def, Ideal.ofBits_zero_f32, zero_add]

/-- Layer 1: the softmax weight of atom `k` at `(o, i)`. -/
theorem v45_at (x6 : (⟨S512x1024x4, .f32⟩ : BufTy).Contents (Elt Ideal)) (o : Fin 512) (i : Fin 1024) (k : Fin 4) :
    val_main_v45 (F := Ideal) x6 (ix3 o i k) = Cert.Net.wt (fun k => x6 (ix3 o i k)) k := by
  have e : idx_main_v43 (idx_main_v44 (ix3 o i k)) = ix2 o i :=
    funext fun a => Fin.ext (by match a with | ⟨0, _⟩ => rfl | ⟨1, _⟩ => rfl)
  rw [val_main_v45_apply, v41_at, val_main_v44_apply, val_main_v43_apply, e, v42_at]
  rfl

/-- Layer 1: the stacked atoms at `(o, i, ·)`: the weight, zero, its hyperbolic tangent, its sine. -/
theorem v53_at (x4 : (⟨S512x1024, .f32⟩ : BufTy).Contents (Elt Ideal)) (o : Fin 512) (i : Fin 1024) :
    val_main_v53 (F := Ideal) x4 (ix3 o i (0 : Fin 4)) = x4 (ix2 o i)
    ∧ val_main_v53 (F := Ideal) x4 (ix3 o i (1 : Fin 4)) = 0
    ∧ val_main_v53 (F := Ideal) x4 (ix3 o i (2 : Fin 4)) = Ideal.tanh (x4 (ix2 o i))
    ∧ val_main_v53 (F := Ideal) x4 (ix3 o i (3 : Fin 4)) = Ideal.sin (x4 (ix2 o i)) := by
  have e49 : idx_main_v49 (ix3 o i (0 : Fin 1)) = ix2 o i :=
    funext fun a => Fin.ext (by match a with | ⟨0, _⟩ => rfl | ⟨1, _⟩ => rfl)
  have e51 : idx_main_v51 (ix3 o i (0 : Fin 1)) = ix2 o i :=
    funext fun a => Fin.ext (by match a with | ⟨0, _⟩ => rfl | ⟨1, _⟩ => rfl)
  have e52 : idx_main_v52 (ix3 o i (0 : Fin 1)) = ix2 o i :=
    funext fun a => Fin.ext (by match a with | ⟨0, _⟩ => rfl | ⟨1, _⟩ => rfl)
  obtain ⟨c0, c1, c2, c3⟩ := concat4 (val_main_v49 (F := Ideal) x4) (val_main_v50 (F := Ideal)) (val_main_v51 (F := Ideal) x4)
    (val_main_v52 (F := Ideal) x4) concatenates_S512x1024x1_S512x1024x1_S512x1024x1_S512x1024x1_S512x1024x4_d2 o i
  refine ⟨c0.trans ?_, c1.trans ?_, c2.trans ?_, c3.trans ?_⟩
  · rw [val_main_v49_apply, e49]
  · rw [val_main_v50_apply, val_main_v46_apply, val_main_cst_10_apply]; exact Ideal.ofBits_zero_f32
  · rw [val_main_v51_apply, val_main_v47_apply, e51]; rfl
  · rw [val_main_v52_apply, val_main_v48_apply, e52]; rfl

/-- Layer 1: the mixed weight at `(o, i)`. -/
theorem v55_at (x4 : (⟨S512x1024, .f32⟩ : BufTy).Contents (Elt Ideal)) (x6 : (⟨S512x1024x4, .f32⟩ : BufTy).Contents (Elt Ideal))
    (o : Fin 512) (i : Fin 1024) :
    val_main_v55 (F := Ideal) x4 x6 (ix2 o i) = Cert.Net.mix (fun k => x6 (ix3 o i k)) (x4 (ix2 o i)) := by
  have e : ∀ k : Fin 4, idx_main_v55 (ix2 o i) k = ix3 o i k := fun k =>
    funext fun a => Fin.ext (by match a with | ⟨0, _⟩ => rfl | ⟨1, _⟩ => rfl | ⟨2, _⟩ => rfl)
  obtain ⟨c0, c1, c2, c3⟩ := v53_at x4 o i
  rw [val_main_v55_apply, val_main_cst_11_apply]
  simp only [e, val_main_v54_apply, v45_at, Ideal.mulf_def, Ideal.ofBits_def, Ideal.ofBits_zero_f32]
  exact mix_eq _ _ (fun k => val_main_v53 (F := Ideal) x4 (ix3 o i k)) c0 c1 c2 c3

/-- Layer 1 of the reference, read at `(p, q)`, over layer 0's result. -/
theorem layer1_at (x0 : (⟨S128x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024x4, .f32⟩ : BufTy).Contents (Elt Ideal))
    (x4 : (⟨S512x1024, .f32⟩ : BufTy).Contents (Elt Ideal)) (x5 : (⟨S512, .f32⟩ : BufTy).Contents (Elt Ideal))
    (x6 : (⟨S512x1024x4, .f32⟩ : BufTy).Contents (Elt Ideal)) (p : Fin 128) (q : Fin 512) :
    val_main_v64 (F := Ideal) x0 x1 x2 x3 x4 x5 x6 (ix2 p q)
      = Cert.Net.layer id (fun b i => val_main_v32 (F := Ideal) x0 x1 x2 x3 (ix2 b i)) (fun o i => x4 (ix2 o i))
          (fun o => x5 (ix1 o)) (fun o i k => x6 (ix3 o i k)) p q := by
  have e61 : ∀ k : Fin 1024, idx_main_v61 (ix2 p q) k = ix3 p q k := fun k =>
    funext fun a => Fin.ext (by match a with | ⟨0, _⟩ => rfl | ⟨1, _⟩ => rfl | ⟨2, _⟩ => rfl)
  have e56 : ∀ k : Fin 1024, idx_main_v56 (idx_main_v58 (ix3 p q k)) = ix2 p k := fun k =>
    funext fun a => Fin.ext (by match a with | ⟨0, _⟩ => rfl | ⟨1, _⟩ => rfl)
  have e57 : ∀ k : Fin 1024, idx_main_v57 (idx_main_v59 (ix3 p q k)) = ix2 q k := fun k =>
    funext fun a => Fin.ext (by match a with | ⟨0, _⟩ => rfl | ⟨1, _⟩ => rfl)
  have e62 : idx_main_v62 (idx_main_v63 (ix2 p q)) = ix1 q :=
    funext fun a => Fin.ext (by match a with | ⟨0, _⟩ => rfl)
  rw [val_main_v64_apply, val_main_v61_apply, val_main_cst_12_apply, val_main_v63_apply, val_main_v62_apply, e62]
  simp only [e61, val_main_v60_apply, val_main_v58_apply, val_main_v56_apply, e56, val_main_v59_apply,
    val_main_v57_apply, e57, v55_at, Ideal.mulf_def, Ideal.addf_def, Ideal.ofBits_def, Ideal.ofBits_zero_f32, zero_add]
  rfl

/-! ## The two layers -/

/-- The reference's result is the two-layer network of the specification, at every index. -/
theorem ref_is_net (x0 : (⟨S128x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024x4, .f32⟩ : BufTy).Contents (Elt Ideal))
    (x4 : (⟨S512x1024, .f32⟩ : BufTy).Contents (Elt Ideal)) (x5 : (⟨S512, .f32⟩ : BufTy).Contents (Elt Ideal))
    (x6 : (⟨S512x1024x4, .f32⟩ : BufTy).Contents (Elt Ideal)) (p : Fin 128) (q : Fin 512) :
    Cert.ReferenceIdeal.Read.val_main_v64 (F := Ideal) x0 x1 x2 x3 x4 x5 x6 (ValueIdx.ix2 p q)
      = Cert.Net.net (fun b i => x0 (ValueIdx.ix2 b i)) (fun o i => x1 (ValueIdx.ix2 o i)) (fun o => x2 (ValueIdx.ix1 o))
          (fun o i k => x3 (ValueIdx.ix3 o i k)) (fun o i => x4 (ValueIdx.ix2 o i)) (fun o => x5 (ValueIdx.ix1 o))
          (fun o i k => x6 (ValueIdx.ix3 o i k)) p q := by
  have h0 : (fun b i => val_main_v32 (F := Ideal) x0 x1 x2 x3 (ix2 b i))
      = Cert.Net.layer Ideal.tanh (fun b i => x0 (ix2 b i)) (fun o i => x1 (ix2 o i)) (fun o => x2 (ix1 o))
          (fun o i k => x3 (ix3 o i k)) :=
    funext fun b => funext fun i => layer0_at x0 x1 x2 x3 b i
  rw [layer1_at, h0]
  rfl

end Cert.Net.Ref

end
-- ==== Proof.lean ====
/-
  A two-layer network whose weights are mixed, entry by entry, with their hyperbolic tangent and sine under a softmax
  over four logits (the fourth atom, identically zero, contributes nothing): the kernel tiles each layer over
  (output column block, reduction step), keeping the partial sums of a block in an accumulator that is reset at the first
  reduction step and turned into the output block, with the bias added, at the last; the reference computes each layer
  whole. On the extended reals the two are one function: a sum over 1024 input columns is the sum of its eight blocks of
  128, a softmax over the atoms is the same whichever axis carries them, a logit divided by the temperature one is the
  logit, and the zero atom's term is zero. No step needs the inputs finite.

  The three frames: each program, run from any memory, terminates without a fault and leaves its argument arrays as
  launched — for the two kernel programs by running the launch through both regions, each region's body at every grid
  point leaving the accumulator and the output block at their named contents; for the reference by its run.
-/
import proofs.«136982_j44813688767075_1_alg».proof.Defs
import proofs.«136982_j44813688767075_1_alg».proof.Proof.Gen.Kernel
import proofs.«136982_j44813688767075_1_alg».proof.Proof.Gen.KernelIdeal
import proofs.«136982_j44813688767075_1_alg».proof.Proof.Gen.ReferenceIdeal
import proofs.«136982_j44813688767075_1_alg».proof.Proof.Gen.Pre_finite_inputs
import proofs.«136982_j44813688767075_1_alg».proof.Proof.Gen.ReferenceIdeal.Run
import proofs.«136982_j44813688767075_1_alg».proof.Proof.Gen.ReferenceIdeal.Read
import proofs.«136982_j44813688767075_1_alg».proof.Proof.KB.Run
import proofs.«136982_j44813688767075_1_alg».proof.Proof.KI.Run
import proofs.«136982_j44813688767075_1_alg».proof.Proof.KI.KValue
import proofs.«136982_j44813688767075_1_alg».proof.Proof.Net.RefIs
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the arguments, both idealized programs end with the network of the arguments in
    their result arrays. -/
theorem algebraic : Cert.algebraic_KernelIdeal_ReferenceIdeal := by
  intro m ρ m' ρ' _ hagree
  refine ⟨fun c => Cert.KernelIdeal.Fr.W4 (F := Ideal) m ρ c (Proc.devRef .tc Cert.KernelIdeal.main_v5), ?_, ?_⟩
  · exact (θ_run (Cert.KernelIdeal.defs (F := Ideal)) _ _).mono (fun r h c =>
      ⟨h c _ (Cert.KernelIdeal.Fr.mem_uc Cert.KernelIdeal.main_v5 (by decide)),
       (h c _ (Cert.KernelIdeal.Fr.mem_uc Cert.KernelIdeal.main_arg0 (by decide))).trans (Cert.KernelIdeal.Fr.W4_main_arg0 m ρ c),
       (h c _ (Cert.KernelIdeal.Fr.mem_uc Cert.KernelIdeal.main_arg1 (by decide))).trans (Cert.KernelIdeal.Fr.W4_main_arg1 m ρ c),
       (h c _ (Cert.KernelIdeal.Fr.mem_uc Cert.KernelIdeal.main_arg2 (by decide))).trans (Cert.KernelIdeal.Fr.W4_main_arg2 m ρ c),
       (h c _ (Cert.KernelIdeal.Fr.mem_uc Cert.KernelIdeal.main_arg3 (by decide))).trans (Cert.KernelIdeal.Fr.W4_main_arg3 m ρ c),
       (h c _ (Cert.KernelIdeal.Fr.mem_uc Cert.KernelIdeal.main_arg4 (by decide))).trans (Cert.KernelIdeal.Fr.W4_main_arg4 m ρ c),
       (h c _ (Cert.KernelIdeal.Fr.mem_uc Cert.KernelIdeal.main_arg5 (by decide))).trans (Cert.KernelIdeal.Fr.W4_main_arg5 m ρ c),
       (h c _ (Cert.KernelIdeal.Fr.mem_uc Cert.KernelIdeal.main_arg6 (by decide))).trans (Cert.KernelIdeal.Fr.W4_main_arg6 m ρ c)⟩)
      (Cert.KernelIdeal.Fr.run_all (F := Ideal) m ρ)
  · refine (θ_run (Cert.ReferenceIdeal.defs (F := Ideal)) _ _).mono (fun _ h c => ⟨(h c).1.trans ?_, (h c).2⟩)
      (Cert.ReferenceIdeal.Value.run (F := Ideal) m' ρ')
    rw [Cert.ReferenceIdeal.Read.val_main_v64_eq, (hagree c).1, (hagree c).2.1, (hagree c).2.2.1, (hagree c).2.2.2.1,
      (hagree c).2.2.2.2.1, (hagree c).2.2.2.2.2.1, (hagree c).2.2.2.2.2.2]
    funext j
    obtain ⟨p, q, rfl⟩ : ∃ (p : Fin 128) (q : Fin 512), j = ix2 p q := ⟨j 0, j 1, eq_ix2 j⟩
    rw [Cert.Net.Ref.ref_is_net]
    exact (Cert.KernelIdeal.Fr.kernel_is_net m ρ c p q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
